-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192 : Shape := ⟨2, ![4, 8192]⟩
abbrev S4x1024x3 : Shape := ⟨3, ![4, 1024, 3]⟩
abbrev S4x512x3 : Shape := ⟨3, ![4, 512, 3]⟩
abbrev S4x1024 : Shape := ⟨2, ![4, 1024]⟩
abbrev S4x512 : Shape := ⟨2, ![4, 512]⟩
abbrev S4x1024x512 : Shape := ⟨3, ![4, 1024, 512]⟩
abbrev S4x1024x1 : Shape := ⟨3, ![4, 1024, 1]⟩
abbrev S4x1x512 : Shape := ⟨3, ![4, 1, 512]⟩
abbrev S_ : Shape := ⟨0, ![]⟩

abbrev nBuf : Space → Nat
  | .hbm => 13
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192, .f32⟩
  | .hbm, ⟨3, _⟩ => ⟨S4x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S4x1024x3, .f32⟩
  | .local _ .vmem, ⟨1, _⟩ => ⟨S4x1024x3, .f32⟩
  | .local _ .vmem, ⟨2, _⟩ => ⟨S4x512x3, .f32⟩
  | .local _ .vmem, ⟨3, _⟩ => ⟨S4x512x3, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024x3, .f32⟩
  | .local _ .vmem, ⟨8, _⟩ => ⟨S4x1024x3, .f32⟩
  | .local _ .vmem, ⟨9, _⟩ => ⟨S4x512x3, .f32⟩
  | .local _ .vmem, ⟨10, _⟩ => ⟨S4x512x3, .f32⟩
  | .local _ .vmem, ⟨11, _⟩ => ⟨S4x1024, .f32⟩
  | .local _ .vmem, ⟨12, _⟩ => ⟨S4x1024, .f32⟩
  | .local _ .vmem, ⟨13, _⟩ => ⟨S4x1024, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_15 : BitVec 32 := 0#32
  let v30 : BitVec 1 := Scalar.cmpi .ne v29 c0_i32_15
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v28 : BitVec 1 := Scalar.cmpi .eq arg1 c15_i32
  let v29 : BitVec 32 := Scalar.extui v28
  let c0_i32_15 : BitVec 32 := 0#32
  let v30 : BitVec 1 := Scalar.cmpi .ne v29 c0_i32_15
  v30

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x1024x3_S4x1024x3_0_0_0 : ∀ a, (![0, 0, 0] : Fin 3 → Nat) a + S4x1024x3.size a ≤ S4x1024x3.size a
  h_S4x1024x3 : 0 < S4x1024x3.numel
  inb_S4x512x3_S4x512x3_0_0_0 : ∀ a, (![0, 0, 0] : Fin 3 → Nat) a + S4x512x3.size a ≤ S4x512x3.size a
  h_S4x512x3 : 0 < S4x512x3.numel
  reduces_S4x1024x3_S4x1024 : S4x1024x3.Reduces [2] S4x1024
  reduces_S4x512x3_S4x512 : S4x512x3.Reduces [2] S4x512
  bitsLt_bf16_f32 : FTy.bits .bf16 < FTy.bits .f32
  shapeCasts_S4x1024_S4x1024x1 : S4x1024.ShapeCasts S4x1024x1
  shapeCasts_S4x512_S4x1x512 : S4x512.ShapeCasts S4x1x512
  broadcasts_S4x1024x1_S4x1024x512 : S4x1024x1.Broadcasts S4x1024x512
  broadcasts_S4x1x512_S4x1024x512 : S4x1x512.Broadcasts S4x1024x512
  reduces_S4x1024x512_S4x1024 : S4x1024x512.Reduces [2] S4x1024
  reducesTo_S4x8192_S_d0_1 : S4x8192.ReducesTo [0, 1] S_
  h_S_ : 0 < S_.numel
  dot_S4x1024x3_S4x512x3_S4x1024x512_2_2_1_1_0_0_wf : DotDims.WF S4x1024x3 S4x512x3 S4x1024x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x3.size a ≤ S4x8192x3.size a
  hwx0_0 : ∀ i : grid0.Coords, EltTy.bits .f32 = 32 ∨ (Rect.block (s := S4x8192x3) S4x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x3.size a ≤ S4x8192x3.size a
  hwx1_0 : ∀ i : grid1.Coords, EltTy.bits .f32 = 32 ∨ (Rect.block (s := S4x8192x3) S4x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x1024.size a ≤ S4x8192.size a
  hwx1_2 : ∀ i : grid1.Coords, EltTy.bits .f32 = 32 ∨ (Rect.block (s := S4x8192) S4x1024.size (cc1_transform_2 i) (hinb1_2 i)).WholeWords (EltTy.packing .f32)

variable [Facts₀]

def dot_S4x1024x3_S4x512x3_S4x1024x512_2_2_1_1_0_0 : DotDims S4x1024x3 S4x512x3 S4x1024x512 where
  lhsContracting := [2]
  rhsContracting := [2]
  lhsNonContracting := [1]
  rhsNonContracting := [1]
  lhsBatch := [0]
  rhsBatch := [0]
  wf := dot_S4x1024x3_S4x512x3_S4x1024x512_2_2_1_1_0_0_wf

abbrev win0_0 : Pipeline.Window sig grid0 :=
  Pipeline.Window.ofSpec (Memref.whole main_arg0) S4x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S4x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.KBody0.lean ====
/-
  Region 0 of @main, at ANY float instance and at a PARAMETER `V`, the TensorCore's buffer contents when the region is
  entered: the cloud of the region's window 0 against the cloud of its window 1.

  The grid is 8 × 16: point t = 16·i + j holds rows [1024 i, 1024 (i+1)) of the first cloud and rows [512 j, 512 (j+1))
  of the second. The body keeps a running minimum in a scratch buffer: at j = 0 it is reset to +∞, at every point it becomes
  min(scratch, this tile's row minima), and at j = 15 it is copied into the output block, which the pipeline writes back
  there and nowhere else. So the body runs in three cases (first / middle / last column of a row of the grid), the scratch
  after point t is a recursion over the points, and the region's invariant carries the scratch at that value.
-/
import proofs.«116434_j28114855920185_1_alg».proof.Proof.Gen.Kernel.Launch
import proofs.«116434_j28114855920185_1_alg».proof.Proof.Gen.Kernel.Skeleton
import proofs.«116434_j28114855920185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, decided over the grid -/

/-- `j = 0`: the first column of a grid row (the scratch is reset). -/
abbrev cond0_0 (i : grid0.Coords) : Prop := (Scalar.cmpi .ne (Scalar.extui (Scalar.cmpi .eq (BitVec.ofNat 32 (i 1).val) 0#32)) 0#32) = 1#1
/-- `j = 15`: the last column (the scratch is copied out). -/
abbrev cond0_1 (i : grid0.Coords) : Prop := k0_cond2 i = 1#1

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-- The two input windows are never idle; the output window is idle, and not written back, away from the last column. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The body on whole memrefs, case by case -/

abbrev rW : Rect S4x1024 := Rect.unit (s := S4x1024) ![0, 0] S4x1024.size inb_S4x1024_S4x1024_0_0
theorem hz2 : (![0, 0] : Fin 2 → Nat) = fun _ => 0 := by funext a; fin_cases a <;> rfl
theorem hz3 : (![0, 0, 0] : Fin 3 → Nat) = fun _ => 0 := by funext a; fin_cases a <;> rfl
/-- One whole-buffer store covers the buffer; so do two. -/
theorem coverW (p : Vec F S4x1024 .f32) (y : S4x1024.Idx) :
    ∃ pc ∈ ([⟨rW, p⟩] : List (View.Piece (Elt F) S4x1024 .f32)), y ∈ pc.1.set :=
  View.cover_of_tiled [⟨rW, p⟩] S4x1024.size (by rfl) y
theorem coverW2 (p q : Vec F S4x1024 .f32) (y : S4x1024.Idx) :
    ∃ pc ∈ ([⟨rW, p⟩, ⟨rW, q⟩] : List (View.Piece (Elt F) S4x1024 .f32)), y ∈ pc.1.set := by
  obtain ⟨pc, hpc, hy⟩ := coverW p y
  rw [List.mem_singleton] at hpc; subst hpc
  exact ⟨_, List.Mem.head _, hy⟩

set_option maxHeartbeats 1000000 in
/-- FIRST COLUMN: whatever the scratch held, it ends at the tile's minima taken against +∞; the output buffer is untouched. -/
theorem runA (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : cond0_0 i) (hc1 : ¬cond0_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (coverW2 _ _), View.canon_cons_unit_zero (S := S4x1024) hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

set_option maxHeartbeats 1000000 in
/-- MIDDLE COLUMNS: the scratch ends at the minimum of what it held and the tile's minima; the output buffer is untouched. -/
theorem runB (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : ¬cond0_0 i) (hc1 : ¬cond0_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  rw [View.read_writes_eq_canon _ _ _ (coverW _), View.canon_unit_zero hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

set_option maxHeartbeats 1000000 in
/-- LAST COLUMN: the scratch is updated as in the middle columns and then copied whole into the output buffer. -/
theorem runC (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : ¬cond0_0 i) (hc1 : cond0_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (coverW _), View.canon_unit_zero hz2]
    simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]
  iexists _; isplitr
  swap; · iexact HS
  ipureintro
  sl_unfold_words
  rw [View.read_writes_eq_canon _ _ _ (coverW _), View.canon_unit_zero hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

/-! ## The staging memrefs at a point, the scratch, and the class invariant spelt out -/

abbrev ms0_0 (t : Fin cfg0.N) : Memref sig .tc .vmem S4x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .f32 := win0_2.stage (cfg0.slots t 2)
abbrev hs0_2 (t : Fin cfg0.N) : (ms0_2 t).IsWhole := hstage0_2 ((cfg0.slots t 2).cast nbuf0_2)
/-- The running-minimum scratch. -/
abbrev scM0 : Memref sig .tc .vmem S4x1024 .f32 := Memref.whole cc0_scratch0

/-- The scoped buffers the region neither stages nor uses (the other pallas_call's), each at some contents. -/
abbrev otherRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant: the scratch at some contents, the other scoped buffers, the generator register. -/
theorem PhiA0_eq (c : Dev nD) :
    (Pipeline.ΦA spec0 c : sProp 𝕄)
      = iprop(iprop((∃ d, owns (c : Thread nD τ) scM0 fullShare d) ∗ otherRest0 c) ∗ (∃ r, prngReg c r)) := by
  unfold Pipeline.ΦA
  rw [Pipeline.scopedRest_eq_of_list spec0 c [cc0_scratch0, cc1_stg0_0, cc1_stg0_1, cc1_stg1_0, cc1_stg1_1, cc1_stg2_0, cc1_stg2_1, cc1_scratch0] (by decide) (by decide)]
  simp only [scM0, owns_whole]; try rfl

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running minimum, point by point -/

/-- What the scratch holds after the body at point `n`: in the first column the tile's minima against +∞, elsewhere against
    what the point before left. -/
def accAt0 (c : Dev nD) : (n : ℕ) → n < cfg0.N → Vec F S4x1024 .f32
  | 0, hn => k0_pay2 (iblk0 V c 0 ⟨0, hn⟩) (iblk0 V c 1 ⟨0, hn⟩) (k0_pay1 (F := F))
  | n + 1, hn =>
    if (n + 1) % 16 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (accAt0 c n (Nat.lt_of_succ_lt hn))

theorem accAt0_first (c : Dev nD) (t : Fin cfg0.N) (h : t.val % 16 = 0) :
    accAt0 V c t.val t.isLt = k0_pay2 (iblk0 V c 0 t) (iblk0 V c 1 t) (k0_pay1 (F := F)) := by
  obtain ⟨n, hn⟩ := t
  cases n with
  | zero => rfl
  | succ n => exact if_pos h

theorem accAt0_next (c : Dev nD) (t : Fin cfg0.N) (h : ¬t.val % 16 = 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: the class's before the first point; afterwards the scratch at what the point
    before left, the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ otherRest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ otherRest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ otherRest0 c) ∗ (∃ r, prngReg c r)) := by
  cases n with
  | zero => exact absurd rfl hz
  | succ n => rfl

/-! ## The proof data -/

/-- The arrays as the region finds them; after the body each input's buffer at its block and the output's at the running
    minimum (consulted only in the last column, where the body stores it); the invariant carrying the scratch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

section Obligation
variable (V : (c : Dev nD) → (b : Ref sig .tc) → Buf (Elt F) ((c : Thread nD τ).loc b))

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the column decides the case; the invariant hands the body
    the scratch at what the point before left (at anything at the very first point, and the first column does not read it)
    and takes it back at this point's running minimum; in the last column the output buffer receives it, elsewhere it is
    handed back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [accAt0_next V c t h0]
    rw [PhiS0_castSucc V c t, PhiS0_pos V c _ _ hz]
    iintro ⟨⟨⟨HS, Hrest⟩, Hg⟩, Ho, ⟨%d0, H0⟩, ⟨%d1, H1⟩, ⟨%d2, H2⟩⟩
    iapply (runC c (grid0.coords t) _ (hs0_0 t) _ (hs0_1 t) _ (hs0_2 t) scM0 (Memref.isWhole_whole _) (fun h => h0 ((hcond0_0 t).mp h)) ((hcond0_1 t).mpr h1) (iblk0 V c 0 t) (iblk0 V c 1 t) _ _ Set.univ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [accAt0_first V c t h0]
      by_cases hz : t.val = 0
      · rw [PhiS0_castSucc V c t, PhiS0_zero V c _ _ hz, PhiA0_eq]
        iintro ⟨⟨⟨⟨%ds, HS⟩, Hrest⟩, Hg⟩, Ho, ⟨%d0, H0⟩, ⟨%d1, H1⟩, ⟨%d2, H2⟩⟩
        iapply (runA c (grid0.coords t) _ (hs0_0 t) _ (hs0_1 t) _ (hs0_2 t) scM0 (Memref.isWhole_whole _) ((hcond0_0 t).mpr h0) (fun h => h1 ((hcond0_1 t).mp h)) (iblk0 V c 0 t) (iblk0 V c 1 t) _ _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hrest⟩, Hg⟩, Ho, ⟨%d0, H0⟩, ⟨%d1, H1⟩, ⟨%d2, H2⟩⟩
        iapply (runA c (grid0.coords t) _ (hs0_0 t) _ (hs0_1 t) _ (hs0_2 t) scM0 (Memref.isWhole_whole _) ((hcond0_0 t).mpr h0) (fun h => h1 ((hcond0_1 t).mp h)) (iblk0 V c 0 t) (iblk0 V c 1 t) _ _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · have hz : t.val ≠ 0 := fun e => h0 (by rw [e])
      rw [accAt0_next V c t h0]
      rw [PhiS0_castSucc V c t, PhiS0_pos V c _ _ hz]
      iintro ⟨⟨⟨HS, Hrest⟩, Hg⟩, Ho, ⟨%d0, H0⟩, ⟨%d1, H1⟩, ⟨%d2, H2⟩⟩
      iapply (runB c (grid0.coords t) _ (hs0_0 t) _ (hs0_1 t) _ (hs0_2 t) scM0 (Memref.isWhole_whole _) (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]; · iexists _; iexact HS
    iexact Hrest
  iexact Hg

theorem hout0 (c : Dev nD) : (dat0 V c).Φ (Fin.last cfg0.N) ⊢ Pipeline.ΦA spec0 c :=
  Phi_out0 V c _ (by rw [Fin.val_last]; have : cfg0.N = 128 := N_0; omega)

end Obligation

end Cert.Kernel.Reg0

end
-- ==== Proof.KBody1.lean ====
/-
  Region 1 of @main, at ANY float instance and at a PARAMETER `V`, the TensorCore's buffer contents when the region is
  entered: the cloud of the region's window 0 against the cloud of its window 1.

  The grid is 8 × 16: point t = 16·i + j holds rows [1024 i, 1024 (i+1)) of the first cloud and rows [512 j, 512 (j+1))
  of the second. The body keeps a running minimum in a scratch buffer: at j = 0 it is reset to +∞, at every point it becomes
  min(scratch, this tile's row minima), and at j = 15 it is copied into the output block, which the pipeline writes back
  there and nowhere else. So the body runs in three cases (first / middle / last column of a row of the grid), the scratch
  after point t is a recursion over the points, and the region's invariant carries the scratch at that value.
-/
import proofs.«116434_j28114855920185_1_alg».proof.Proof.Gen.Kernel.Launch
import proofs.«116434_j28114855920185_1_alg».proof.Proof.Gen.Kernel.Skeleton
import proofs.«116434_j28114855920185_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two branch conditions, decided over the grid -/

/-- `j = 0`: the first column of a grid row (the scratch is reset). -/
abbrev cond1_0 (i : grid1.Coords) : Prop := (Scalar.cmpi .ne (Scalar.extui (Scalar.cmpi .eq (BitVec.ofNat 32 (i 1).val) 0#32)) 0#32) = 1#1
/-- `j = 15`: the last column (the scratch is copied out). -/
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-- The two input windows are never idle; the output window is idle, and not written back, away from the last column. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body on whole memrefs, case by case -/

abbrev rW : Rect S4x1024 := Rect.unit (s := S4x1024) ![0, 0] S4x1024.size inb_S4x1024_S4x1024_0_0
theorem hz2 : (![0, 0] : Fin 2 → Nat) = fun _ => 0 := by funext a; fin_cases a <;> rfl
theorem hz3 : (![0, 0, 0] : Fin 3 → Nat) = fun _ => 0 := by funext a; fin_cases a <;> rfl
/-- One whole-buffer store covers the buffer; so do two. -/
theorem coverW (p : Vec F S4x1024 .f32) (y : S4x1024.Idx) :
    ∃ pc ∈ ([⟨rW, p⟩] : List (View.Piece (Elt F) S4x1024 .f32)), y ∈ pc.1.set :=
  View.cover_of_tiled [⟨rW, p⟩] S4x1024.size (by rfl) y
theorem coverW2 (p q : Vec F S4x1024 .f32) (y : S4x1024.Idx) :
    ∃ pc ∈ ([⟨rW, p⟩, ⟨rW, q⟩] : List (View.Piece (Elt F) S4x1024 .f32)), y ∈ pc.1.set := by
  obtain ⟨pc, hpc, hy⟩ := coverW p y
  rw [List.mem_singleton] at hpc; subst hpc
  exact ⟨_, List.Mem.head _, hy⟩

set_option maxHeartbeats 1000000 in
/-- FIRST COLUMN: whatever the scratch held, it ends at the tile's minima taken against +∞; the output buffer is untouched. -/
theorem runA (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : cond1_0 i) (hc1 : ¬cond1_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (coverW2 _ _), View.canon_cons_unit_zero (S := S4x1024) hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

set_option maxHeartbeats 1000000 in
/-- MIDDLE COLUMNS: the scratch ends at the minimum of what it held and the tile's minima; the output buffer is untouched. -/
theorem runB (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : ¬cond1_0 i) (hc1 : ¬cond1_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  rw [View.read_writes_eq_canon _ _ _ (coverW _), View.canon_unit_zero hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

set_option maxHeartbeats 1000000 in
/-- LAST COLUMN: the scratch is updated as in the middle columns and then copied whole into the output buffer. -/
theorem runC (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : ¬cond1_0 i) (hc1 : cond1_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (coverW _), View.canon_unit_zero hz2]
    simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]
  iexists _; isplitr
  swap; · iexact HS
  ipureintro
  sl_unfold_words
  rw [View.read_writes_eq_canon _ _ _ (coverW _), View.canon_unit_zero hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

/-! ## The staging memrefs at a point, the scratch, and the class invariant spelt out -/

abbrev ms1_0 (t : Fin cfg1.N) : Memref sig .tc .vmem S4x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1024 .f32 := win1_2.stage (cfg1.slots t 2)
abbrev hs1_2 (t : Fin cfg1.N) : (ms1_2 t).IsWhole := hstage1_2 ((cfg1.slots t 2).cast nbuf1_2)
/-- The running-minimum scratch. -/
abbrev scM1 : Memref sig .tc .vmem S4x1024 .f32 := Memref.whole cc1_scratch0

/-- The scoped buffers the region neither stages nor uses (the other pallas_call's), each at some contents. -/
abbrev otherRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant: the scratch at some contents, the other scoped buffers, the generator register. -/
theorem PhiA1_eq (c : Dev nD) :
    (Pipeline.ΦA spec1 c : sProp 𝕄)
      = iprop(iprop((∃ d, owns (c : Thread nD τ) scM1 fullShare d) ∗ otherRest1 c) ∗ (∃ r, prngReg c r)) := by
  unfold Pipeline.ΦA
  rw [Pipeline.scopedRest_eq_of_list spec1 c [cc1_scratch0, cc0_stg0_0, cc0_stg0_1, cc0_stg1_0, cc0_stg1_1, cc0_stg2_0, cc0_stg2_1, cc0_scratch0] (by decide) (by decide)]
  simp only [scM1, owns_whole]; try rfl

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running minimum, point by point -/

/-- What the scratch holds after the body at point `n`: in the first column the tile's minima against +∞, elsewhere against
    what the point before left. -/
def accAt1 (c : Dev nD) : (n : ℕ) → n < cfg1.N → Vec F S4x1024 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h : t.val % 16 = 0) :
    accAt1 V c t.val t.isLt = k1_pay2 (iblk1 V c 0 t) (iblk1 V c 1 t) (k1_pay1 (F := F)) := by
  obtain ⟨n, hn⟩ := t
  cases n with
  | zero => rfl
  | succ n => exact if_pos h

theorem accAt1_next (c : Dev nD) (t : Fin cfg1.N) (h : ¬t.val % 16 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: the class's before the first point; afterwards the scratch at what the point
    before left, the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ otherRest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ otherRest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ otherRest1 c) ∗ (∃ r, prngReg c r)) := by
  cases n with
  | zero => exact absurd rfl hz
  | succ n => rfl

/-! ## The proof data -/

/-- The arrays as the region finds them; after the body each input's buffer at its block and the output's at the running
    minimum (consulted only in the last column, where the body stores it); the invariant carrying the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region

section Obligation
variable (V : (c : Dev nD) → (b : Ref sig .tc) → Buf (Elt F) ((c : Thread nD τ).loc b))

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the column decides the case; the invariant hands the body
    the scratch at what the point before left (at anything at the very first point, and the first column does not read it)
    and takes it back at this point's running minimum; in the last column the output buffer receives it, elsewhere it is
    handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h1 : t.val % 16 = 15
  · have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_next V c t h0]
    rw [PhiS1_castSucc V c t, PhiS1_pos V c _ _ hz]
    iintro ⟨⟨⟨HS, Hrest⟩, Hg⟩, Ho, ⟨%d0, H0⟩, ⟨%d1, H1⟩, ⟨%d2, H2⟩⟩
    iapply (runC c (grid1.coords t) _ (hs1_0 t) _ (hs1_1 t) _ (hs1_2 t) scM1 (Memref.isWhole_whole _) (fun h => h0 ((hcond1_0 t).mp h)) ((hcond1_1 t).mpr h1) (iblk1 V c 0 t) (iblk1 V c 1 t) _ _ Set.univ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 16 = 0
    · rw [accAt1_first V c t h0]
      by_cases hz : t.val = 0
      · rw [PhiS1_castSucc V c t, PhiS1_zero V c _ _ hz, PhiA1_eq]
        iintro ⟨⟨⟨⟨%ds, HS⟩, Hrest⟩, Hg⟩, Ho, ⟨%d0, H0⟩, ⟨%d1, H1⟩, ⟨%d2, H2⟩⟩
        iapply (runA c (grid1.coords t) _ (hs1_0 t) _ (hs1_1 t) _ (hs1_2 t) scM1 (Memref.isWhole_whole _) ((hcond1_0 t).mpr h0) (fun h => h1 ((hcond1_1 t).mp h)) (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hrest⟩, Hg⟩, Ho, ⟨%d0, H0⟩, ⟨%d1, H1⟩, ⟨%d2, H2⟩⟩
        iapply (runA c (grid1.coords t) _ (hs1_0 t) _ (hs1_1 t) _ (hs1_2 t) scM1 (Memref.isWhole_whole _) ((hcond1_0 t).mpr h0) (fun h => h1 ((hcond1_1 t).mp h)) (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · have hz : t.val ≠ 0 := fun e => h0 (by rw [e])
      rw [accAt1_next V c t h0]
      rw [PhiS1_castSucc V c t, PhiS1_pos V c _ _ hz]
      iintro ⟨⟨⟨HS, Hrest⟩, Hg⟩, Ho, ⟨%d0, H0⟩, ⟨%d1, H1⟩, ⟨%d2, H2⟩⟩
      iapply (runB c (grid1.coords t) _ (hs1_0 t) _ (hs1_1 t) _ (hs1_2 t) scM1 (Memref.isWhole_whole _) (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]; · iexists _; iexact HS
    iexact Hrest
  iexact Hg

theorem hout1 (c : Dev nD) : (dat1 V c).Φ (Fin.last cfg1.N) ⊢ Pipeline.ΦA spec1 c :=
  Phi_out1 V c _ (by rw [Fin.val_last]; have : cfg1.N = 128 := N_1; omega)

end Obligation

end Cert.Kernel.Reg1

end
-- ==== Proof.KRun.lean ====
/-
  The whole run of @main at ANY float instance: two kernel regions, then nine host operations.

  The buffers' contents at the four boundaries are a fold from the launch memory: region 0 changes only its output array
  `main_v0` (to what its write-backs leave), region 1 only `main_v1`, and the host stretch writes the scalars that end in the
  result. Each region is entered from "every unscoped buffer at the boundary's contents" and left at the next boundary's; the
  launch theorem for a list of segments then gives: every weakly fair execution terminates, and the final memory holds every
  unscoped buffer at the last boundary's contents. The frame claim reads the two arguments off that, a value claim the result.
-/
import proofs.«116434_j28114855920185_1_alg».proof.Proof.KBody0
import proofs.«116434_j28114855920185_1_alg».proof.Proof.KBody1
import proofs.«116434_j28114855920185_1_alg».proof.Proof.Gen.Kernel.Regions

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (region 0's entry). -/
abbrev B0 : Dev nD → Valuation τ sig (Elt F) := fun c b => m ((c : Dev nD), b)
/-- The same read at the TensorCore's references. -/
abbrev U0 : (c : Dev nD) → (b : Ref sig .tc) → Buf (Elt F) ((c : Thread nD τ).loc b) := fun c b => B0 m c b
/-- At region 0's exit: its arrays at what the pipeline leaves, every other buffer as entered. -/
def B1 (c : Dev nD) : Valuation τ sig (Elt F) :=
  Pipeline.withArrays spec0 c (B0 m c) fun w => (Reg0.dat0 (U0 m) c).arrAt w cfg0.N
theorem B1_arr (c : Dev nD) (w : Fin cfg0.W) :
    B1 m c (Proc.devRef .tc (Pipeline.arrRef spec0 w)) = (Reg0.dat0 (U0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev U1 : (c : Dev nD) → (b : Ref sig .tc) → Buf (Elt F) ((c : Thread nD τ).loc b) := fun c b => B1 m c b
theorem hF0 (c : Dev nD) (w : Fin cfg0.W) : (Reg0.dat0 (U0 m) c).arrAt w cfg0.N = U1 m c (Pipeline.arrRef spec0 w) :=
  (B1_arr m c w).symm
theorem hrest0 (c : Dev nD) : ∀ b, b ∉ Finset.univ.image (Pipeline.arrRef spec0) → U1 m c b = U0 m c b :=
  fun b hb => B1_of_ne m c b fun w e => hb (Finset.mem_image.mpr ⟨w, Finset.mem_univ _, e⟩)

/-- Region 0 leaves both argument arrays as it found them (it reads them through input windows). -/
theorem U1_main_arg0 (c : Dev nD) : U1 m c main_arg0 = m ((c : Thread nD τ).loc main_arg0) :=
  (B1_arr m c 0).trans (((Reg0.dat0 (U0 m) c).arrAt_in 0 rfl _).trans (Reg0.A_eq0 (U0 m) c 0))
theorem U1_main_arg1 (c : Dev nD) : U1 m c main_arg1 = m ((c : Thread nD τ).loc main_arg1) :=
  (B1_arr m c 1).trans (((Reg0.dat0 (U0 m) c).arrAt_in 1 rfl _).trans (Reg0.A_eq0 (U0 m) c 1))

/-- At region 1's exit likewise, from region 0's exit contents. -/
def B2 (c : Dev nD) : Valuation τ sig (Elt F) :=
  Pipeline.withArrays spec1 c (B1 m c) fun w => (Reg1.dat1 (U1 m) c).arrAt w cfg1.N
theorem B2_arr (c : Dev nD) (w : Fin cfg1.W) :
    B2 m c (Proc.devRef .tc (Pipeline.arrRef spec1 w)) = (Reg1.dat1 (U1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev U2 : (c : Dev nD) → (b : Ref sig .tc) → Buf (Elt F) ((c : Thread nD τ).loc b) := fun c b => B2 m c b
theorem hF1 (c : Dev nD) (w : Fin cfg1.W) : (Reg1.dat1 (U1 m) c).arrAt w cfg1.N = U2 m c (Pipeline.arrRef spec1 w) :=
  (B2_arr m c w).symm
theorem hrest1 (c : Dev nD) : ∀ b, b ∉ Finset.univ.image (Pipeline.arrRef spec1) → U2 m c b = U1 m c b :=
  fun b hb => B2_of_ne m c b fun w e => hb (Finset.mem_image.mpr ⟨w, Finset.mem_univ _, e⟩)

/-- After the host stretch: the end of @main. -/
abbrev B3 : Dev nD → Valuation τ sig (Elt F) := fun c => StableHlo.after hostOps2 (B2 m c)

/-! ### The arguments end as launched: each region reads them through input windows, the host stretch writes neither -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := StableHlo.after_of_writes_sub hostOps2 _ hostOps2_writes (r := main_arg0) (by decide)
    _ = B1 m c (Proc.devRef .tc main_arg0) := (B2_arr m c 1).trans (((Reg1.dat1 (U1 m) c).arrAt_in 1 rfl _).trans (Reg1.A_eq1 (U1 m) c 1))
    _ = B0 m c (Proc.devRef .tc main_arg0) := (B1_arr m c 0).trans (((Reg0.dat0 (U0 m) c).arrAt_in 0 rfl _).trans (Reg0.A_eq0 (U0 m) c 0))
    _ = m ((c : Thread nD τ).loc main_arg0) := rfl

theorem B3_main_arg1 (c : Dev nD) : B3 m c (Proc.devRef .tc main_arg1) = m ((c : Thread nD τ).loc main_arg1) :=
  calc B3 m c (Proc.devRef .tc main_arg1)
    _ = B2 m c (Proc.devRef .tc main_arg1) := StableHlo.after_of_writes_sub hostOps2 _ hostOps2_writes (r := main_arg1) (by decide)
    _ = B1 m c (Proc.devRef .tc main_arg1) := (B2_arr m c 0).trans (((Reg1.dat1 (U1 m) c).arrAt_in 0 rfl _).trans (Reg1.A_eq1 (U1 m) c 0))
    _ = B0 m c (Proc.devRef .tc main_arg1) := (B1_arr m c 1).trans (((Reg0.dat0 (U0 m) c).arrAt_in 1 rfl _).trans (Reg0.A_eq0 (U0 m) c 1))
    _ = m ((c : Thread nD τ).loc main_arg1) := rfl

/-- The two regions' outputs as the host stretch finds them: region 0's survives region 1, which does not touch it. -/
theorem B2_main_v0 (c : Dev nD) : B2 m c (Proc.devRef .tc main_v0) = (Reg0.dat0 (U0 m) c).arrAt 2 cfg0.N :=
  (B2_of_ne m c main_v0 (by decide)).trans (B1_arr m c 2)
theorem B2_main_v1 (c : Dev nD) : B2 m c (Proc.devRef .tc main_v1) = (Reg1.dat1 (U1 m) c).arrAt 2 cfg1.N :=
  B2_arr m c 2

/-! ## The proof data family and the thread state -/

/-- Every pipeline's proof data, each at its region's entry contents — a literal `match`. -/
def pdats : (p : Fin 2) → (c : Dev nD) → Dat τ (Elt F) Unit ℕ (UR sig nD τ) ℕ (Pipeline.pin (pcfgs (F := F)) adm p) c
  | ⟨0, _⟩ => fun c => Reg0.dat0 (U0 m) c
  | ⟨1, _⟩ => fun c => Reg1.dat1 (U1 m) c
/-- No core owes another anything: no level is assigned. -/
abbrev L0 : GSem nD τ sig → Finset Unit := fun _ => ∅
abbrev lv0 : GSem nD τ sig → Unit → ℕ := fun _ _ => 0
/-- What rides beside the buffers through every segment: the generator register at some state and the core's `owes`, at nothing. -/
abbrev Rest (c : Dev nD) : sProp 𝕄 := iprop((∃ r, prngReg c r) ∗ ∃ W, owes (c : Thread nD τ) (0 : CellTallies nD τ sig Unit) W)
/-- A host stretch as a segment over the unscoped references from the contents `W`, `Rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- `iapply` of a library lemma stated over `pin pcs a p` unifies with the pinned configuration only when unification may
-- unfold plain definitions in a metavariable's type
set_option backward.isDefEq.respectTransparency.types false in
/-- Region 0 over the thread state "every unscoped buffer at the boundary's contents, the generator register at some state,
    nothing owed": its arrays are split out of the unscoped buffers at entry and put back at what the write-backs leave at
    exit; the generator register and the scoped buffers go into the region's invariant and come back. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (Reg0.body_obligation0 (U0 m) c).loose
  hwaits := Pipeline.hwaits_of_owed_zero _ _ _ _ L0 lv0 0 fun _ _ => rfl
  pre c := iprop(StableHlo.held (c : Thread nD τ) (Pipeline.ucRefs τ sig) (B0 m c) ∗ Rest c)
  post c := iprop(StableHlo.held (c : Thread nD τ) (Pipeline.ucRefs τ sig) (B1 m c) ∗ Rest c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Reg0.dat0 (U0 m) c).Φ 0 from rfl]
    iintro ⟨Hp, -, Hr⟩
    iapply (Reg0.hin0 (U0 m) c)
    unfold Pipeline.ΦA
    isplitl [Hr]; · iexact Hr
    iexact Hp
  hout c := by
    rw [Pipeline.ownSems0_none, show (pdats m 0 c).Φ (Fin.last _) = (Reg0.dat0 (U0 m) c).Φ (Fin.last cfg0.N) from rfl]
    have hh := Reg0.hout0 (U0 m) c
    iintro H
    ihave H2 := hh $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state "every unscoped buffer at the boundary's contents, the generator register at some state,
    nothing owed": its arrays are split out of the unscoped buffers at entry and put back at what the write-backs leave at
    exit; the generator register and the scoped buffers go into the region's invariant and come back. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (Reg1.body_obligation1 (U1 m) c).loose
  hwaits := Pipeline.hwaits_of_owed_zero _ _ _ _ L0 lv0 1 fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat1 (U1 m) c).Φ 0 from rfl]
    iintro ⟨Hp, -, Hr⟩
    iapply (Reg1.hin1 (U1 m) c)
    unfold Pipeline.ΦA
    isplitl [Hr]; · iexact Hr
    iexact Hp
  hout c := by
    rw [Pipeline.ownSems0_none, show (pdats m 1 c).Φ (Fin.last _) = (Reg1.dat1 (U1 m) c).Φ (Fin.last cfg1.N) from rfl]
    have hh := Reg1.hout1 (U1 m) c
    iintro H
    ihave H2 := hh $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order. -/
abbrev segList : List (Pipeline.Seg (pcfgs (F := F)) adm (pdats m) () defs₀ Variants.none L0 lv0) :=
  [ .region (reg0 m),
    .region (reg1 m),
    .host (hseg hostOps2 hostOps2_sub hostOps2_fresh (B2 m)) ]
/-- @main IS the run of the segments. -/
theorem main_run (c : Dev nD) : main (F := F) c = Pipeline.Seg.run (segList m) := (main_chain c).trans (by chain_rfl)

variable (ρ : Dev nD → PrngReg)

-- the launch theorem's implicit arguments are found by unifying its conclusion with this one, which takes unfolding
-- plain definitions in a metavariable's type
set_option backward.isDefEq.respectTransparency.types false in
/-- THE RUN: from any memory with zero counters every weakly fair execution of @main terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ Variants.none L0 lv0 m ρ main (segList m)
    (fun c Q => by rw [main_run m c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c))
    (Tₙ := fun c => StableHlo.held (c : Thread nD τ) (Pipeline.ucRefs τ sig) (B3 m c))
    (hch := ⟨fun _ => .rfl, fun _ => .rfl, fun _ => .rfl, fun c => sep_mono .rfl (by iintro ⟨-, H⟩; iexact H)⟩)
    (hinit := by
      refine Pipeline.initEach L0 lv0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨Hh, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m c),
     (h c _ (mem_uc main_arg1 (by decide))).trans (B3_main_arg1 m c)⟩) (run_all m ρ)

end Cert.Kernel.Run

end
-- ==== Proof.Body0.lean ====
/-
  Region 0 of @main, at ANY float instance and at a PARAMETER `V`, the TensorCore's buffer contents when the region is
  entered: the cloud of the region's window 0 against the cloud of its window 1.

  The grid is 8 × 16: point t = 16·i + j holds rows [1024 i, 1024 (i+1)) of the first cloud and rows [512 j, 512 (j+1))
  of the second. The body keeps a running minimum in a scratch buffer: at j = 0 it is reset to +∞, at every point it becomes
  min(scratch, this tile's row minima), and at j = 15 it is copied into the output block, which the pipeline writes back
  there and nowhere else. So the body runs in three cases (first / middle / last column of a row of the grid), the scratch
  after point t is a recursion over the points, and the region's invariant carries the scratch at that value.
-/
import proofs.«116434_j28114855920185_1_alg».proof.Proof.Gen.KernelIdeal.Launch
import proofs.«116434_j28114855920185_1_alg».proof.Proof.Gen.KernelIdeal.Skeleton
import proofs.«116434_j28114855920185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, decided over the grid -/

/-- `j = 0`: the first column of a grid row (the scratch is reset). -/
abbrev cond0_0 (i : grid0.Coords) : Prop := (Scalar.cmpi .ne (Scalar.extui (Scalar.cmpi .eq (BitVec.ofNat 32 (i 1).val) 0#32)) 0#32) = 1#1
/-- `j = 15`: the last column (the scratch is copied out). -/
abbrev cond0_1 (i : grid0.Coords) : Prop := k0_cond2 i = 1#1

theorem hcond0_0 : ∀ t : Fin cfg0.N, cond0_0 (grid0.coords t) ↔ t.val % 16 = 0 :=
  (by decide +kernel : ∀ t : Fin grid0.N, cond0_0 (grid0.coords t) ↔ t.val % 16 = 0)
theorem hcond0_1 : ∀ t : Fin cfg0.N, cond0_1 (grid0.coords t) ↔ t.val % 16 = 15 :=
  (by decide +kernel : ∀ t : Fin grid0.N, cond0_1 (grid0.coords t) ↔ t.val % 16 = 15)

/-- The two input windows are never idle; the output window is idle, and not written back, away from the last column. -/
theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The body on whole memrefs, case by case -/

abbrev rW : Rect S4x1024 := Rect.unit (s := S4x1024) ![0, 0] S4x1024.size inb_S4x1024_S4x1024_0_0
theorem hz2 : (![0, 0] : Fin 2 → Nat) = fun _ => 0 := by funext a; fin_cases a <;> rfl
theorem hz3 : (![0, 0, 0] : Fin 3 → Nat) = fun _ => 0 := by funext a; fin_cases a <;> rfl
/-- One whole-buffer store covers the buffer; so do two. -/
theorem coverW (p : Vec F S4x1024 .f32) (y : S4x1024.Idx) :
    ∃ pc ∈ ([⟨rW, p⟩] : List (View.Piece (Elt F) S4x1024 .f32)), y ∈ pc.1.set :=
  View.cover_of_tiled [⟨rW, p⟩] S4x1024.size (by rfl) y
theorem coverW2 (p q : Vec F S4x1024 .f32) (y : S4x1024.Idx) :
    ∃ pc ∈ ([⟨rW, p⟩, ⟨rW, q⟩] : List (View.Piece (Elt F) S4x1024 .f32)), y ∈ pc.1.set := by
  obtain ⟨pc, hpc, hy⟩ := coverW p y
  rw [List.mem_singleton] at hpc; subst hpc
  exact ⟨_, List.Mem.head _, hy⟩

set_option maxHeartbeats 1000000 in
/-- FIRST COLUMN: whatever the scratch held, it ends at the tile's minima taken against +∞; the output buffer is untouched. -/
theorem runA (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : cond0_0 i) (hc1 : ¬cond0_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 (k0_pay1 (F := F)))) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (coverW2 _ _), View.canon_cons_unit_zero (S := S4x1024) hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

set_option maxHeartbeats 1000000 in
/-- MIDDLE COLUMNS: the scratch ends at the minimum of what it held and the tile's minima; the output buffer is untouched. -/
theorem runB (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : ¬cond0_0 i) (hc1 : ¬cond0_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k0_pay2 x0 x1 xs)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  rw [View.read_writes_eq_canon _ _ _ (coverW _), View.canon_unit_zero hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

set_option maxHeartbeats 1000000 in
/-- LAST COLUMN: the scratch is updated as in the middle columns and then copied whole into the output buffer. -/
theorem runC (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : ¬cond0_0 i) (hc1 : cond0_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k0_pay2 x0 x1 xs) ∗ owns (c : Thread nD τ) arg5 fullShare (k0_pay2 x0 x1 xs)) -∗ K ⟨⟩))
      ⊢ wp frame (wpE (defs₀ (F := F)) Variants.none c none) E (cc0__chamfer_min_kernel i arg2 harg2 arg3 harg3 arg4 harg4 arg5 harg5) K := by
  simp only [cc0__chamfer_min_kernel_eq_skeleton]; unfold cc0__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (coverW _), View.canon_unit_zero hz2]
    simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]
  iexists _; isplitr
  swap; · iexact HS
  ipureintro
  sl_unfold_words
  rw [View.read_writes_eq_canon _ _ _ (coverW _), View.canon_unit_zero hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

/-! ## The staging memrefs at a point, the scratch, and the class invariant spelt out -/

abbrev ms0_0 (t : Fin cfg0.N) : Memref sig .tc .vmem S4x1024x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .f32 := win0_2.stage (cfg0.slots t 2)
abbrev hs0_2 (t : Fin cfg0.N) : (ms0_2 t).IsWhole := hstage0_2 ((cfg0.slots t 2).cast nbuf0_2)
/-- The running-minimum scratch. -/
abbrev scM0 : Memref sig .tc .vmem S4x1024 .f32 := Memref.whole cc0_scratch0

/-- The scoped buffers the region neither stages nor uses (the other pallas_call's), each at some contents. -/
abbrev otherRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant: the scratch at some contents, the other scoped buffers, the generator register. -/
theorem PhiA0_eq (c : Dev nD) :
    (Pipeline.ΦA spec0 c : sProp 𝕄)
      = iprop(iprop((∃ d, owns (c : Thread nD τ) scM0 fullShare d) ∗ otherRest0 c) ∗ (∃ r, prngReg c r)) := by
  unfold Pipeline.ΦA
  rw [Pipeline.scopedRest_eq_of_list spec0 c [cc0_scratch0, cc1_stg0_0, cc1_stg0_1, cc1_stg1_0, cc1_stg1_1, cc1_stg2_0, cc1_stg2_1, cc1_scratch0] (by decide) (by decide)]
  simp only [scM0, owns_whole]; try rfl

section Region
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The running minimum, point by point -/

/-- What the scratch holds after the body at point `n`: in the first column the tile's minima against +∞, elsewhere against
    what the point before left. -/
def accAt0 (c : Dev nD) : (n : ℕ) → n < cfg0.N → Vec F S4x1024 .f32
  | 0, hn => k0_pay2 (iblk0 V c 0 ⟨0, hn⟩) (iblk0 V c 1 ⟨0, hn⟩) (k0_pay1 (F := F))
  | n + 1, hn =>
    if (n + 1) % 16 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (accAt0 c n (Nat.lt_of_succ_lt hn))

theorem accAt0_first (c : Dev nD) (t : Fin cfg0.N) (h : t.val % 16 = 0) :
    accAt0 V c t.val t.isLt = k0_pay2 (iblk0 V c 0 t) (iblk0 V c 1 t) (k0_pay1 (F := F)) := by
  obtain ⟨n, hn⟩ := t
  cases n with
  | zero => rfl
  | succ n => exact if_pos h

theorem accAt0_next (c : Dev nD) (t : Fin cfg0.N) (h : ¬t.val % 16 = 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: the class's before the first point; afterwards the scratch at what the point
    before left, the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare (accAt0 V c n hn) ∗ otherRest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (accAt0 V c n hn) ∗ otherRest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare (accAt0 V c (n - 1) (by omega)) ∗ otherRest0 c) ∗ (∃ r, prngReg c r)) := by
  cases n with
  | zero => exact absurd rfl hz
  | succ n => rfl

/-! ## The proof data -/

/-- The arrays as the region finds them; after the body each input's buffer at its block and the output's at the running
    minimum (consulted only in the last column, where the body stores it); the invariant carrying the scratch. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accAt0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = accAt0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Region

section Obligation
variable (V : (c : Dev nD) → (b : Ref sig .tc) → Buf (Elt F) ((c : Thread nD τ).loc b))

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the column decides the case; the invariant hands the body
    the scratch at what the point before left (at anything at the very first point, and the first column does not read it)
    and takes it back at this point's running minimum; in the last column the output buffer receives it, elsewhere it is
    handed back untouched; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 128 := lt_of_lt_of_eq t.isLt (show cfg0.N = 128 from N_0)
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [accAt0_next V c t h0]
    rw [PhiS0_castSucc V c t, PhiS0_pos V c _ _ hz]
    iintro ⟨⟨⟨HS, Hrest⟩, Hg⟩, Ho, ⟨%d0, H0⟩, ⟨%d1, H1⟩, ⟨%d2, H2⟩⟩
    iapply (runC c (grid0.coords t) _ (hs0_0 t) _ (hs0_1 t) _ (hs0_2 t) scM0 (Memref.isWhole_whole _) (fun h => h0 ((hcond0_0 t).mp h)) ((hcond0_1 t).mpr h1) (iblk0 V c 0 t) (iblk0 V c 1 t) _ _ Set.univ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [accAt0_first V c t h0]
      by_cases hz : t.val = 0
      · rw [PhiS0_castSucc V c t, PhiS0_zero V c _ _ hz, PhiA0_eq]
        iintro ⟨⟨⟨⟨%ds, HS⟩, Hrest⟩, Hg⟩, Ho, ⟨%d0, H0⟩, ⟨%d1, H1⟩, ⟨%d2, H2⟩⟩
        iapply (runA c (grid0.coords t) _ (hs0_0 t) _ (hs0_1 t) _ (hs0_2 t) scM0 (Memref.isWhole_whole _) ((hcond0_0 t).mpr h0) (fun h => h1 ((hcond0_1 t).mp h)) (iblk0 V c 0 t) (iblk0 V c 1 t) _ _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS, Hrest⟩, Hg⟩, Ho, ⟨%d0, H0⟩, ⟨%d1, H1⟩, ⟨%d2, H2⟩⟩
        iapply (runA c (grid0.coords t) _ (hs0_0 t) _ (hs0_1 t) _ (hs0_2 t) scM0 (Memref.isWhole_whole _) ((hcond0_0 t).mpr h0) (fun h => h1 ((hcond0_1 t).mp h)) (iblk0 V c 0 t) (iblk0 V c 1 t) _ _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · have hz : t.val ≠ 0 := fun e => h0 (by rw [e])
      rw [accAt0_next V c t h0]
      rw [PhiS0_castSucc V c t, PhiS0_pos V c _ _ hz]
      iintro ⟨⟨⟨HS, Hrest⟩, Hg⟩, Ho, ⟨%d0, H0⟩, ⟨%d1, H1⟩, ⟨%d2, H2⟩⟩
      iapply (runB c (grid0.coords t) _ (hs0_0 t) _ (hs0_1 t) _ (hs0_2 t) scM0 (Memref.isWhole_whole _) (fun h => h0 ((hcond0_0 t).mp h)) (fun h => h1 ((hcond0_1 t).mp h)) (iblk0 V c 0 t) (iblk0 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point the invariant gives the class's back: the scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Hrest⟩, Hg⟩
  isplitl [HS Hrest]
  · isplitl [HS]; · iexists _; iexact HS
    iexact Hrest
  iexact Hg

theorem hout0 (c : Dev nD) : (dat0 V c).Φ (Fin.last cfg0.N) ⊢ Pipeline.ΦA spec0 c :=
  Phi_out0 V c _ (by rw [Fin.val_last]; have : cfg0.N = 128 := N_0; omega)

end Obligation

end Cert.KernelIdeal.Reg0

end
-- ==== Proof.Body1.lean ====
/-
  Region 1 of @main, at ANY float instance and at a PARAMETER `V`, the TensorCore's buffer contents when the region is
  entered: the cloud of the region's window 0 against the cloud of its window 1.

  The grid is 8 × 16: point t = 16·i + j holds rows [1024 i, 1024 (i+1)) of the first cloud and rows [512 j, 512 (j+1))
  of the second. The body keeps a running minimum in a scratch buffer: at j = 0 it is reset to +∞, at every point it becomes
  min(scratch, this tile's row minima), and at j = 15 it is copied into the output block, which the pipeline writes back
  there and nowhere else. So the body runs in three cases (first / middle / last column of a row of the grid), the scratch
  after point t is a recursion over the points, and the region's invariant carries the scratch at that value.
-/
import proofs.«116434_j28114855920185_1_alg».proof.Proof.Gen.KernelIdeal.Launch
import proofs.«116434_j28114855920185_1_alg».proof.Proof.Gen.KernelIdeal.Skeleton
import proofs.«116434_j28114855920185_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two branch conditions, decided over the grid -/

/-- `j = 0`: the first column of a grid row (the scratch is reset). -/
abbrev cond1_0 (i : grid1.Coords) : Prop := (Scalar.cmpi .ne (Scalar.extui (Scalar.cmpi .eq (BitVec.ofNat 32 (i 1).val) 0#32)) 0#32) = 1#1
/-- `j = 15`: the last column (the scratch is copied out). -/
abbrev cond1_1 (i : grid1.Coords) : Prop := k1_cond2 i = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-- The two input windows are never idle; the output window is idle, and not written back, away from the last column. -/
theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-! ## The body on whole memrefs, case by case -/

abbrev rW : Rect S4x1024 := Rect.unit (s := S4x1024) ![0, 0] S4x1024.size inb_S4x1024_S4x1024_0_0
theorem hz2 : (![0, 0] : Fin 2 → Nat) = fun _ => 0 := by funext a; fin_cases a <;> rfl
theorem hz3 : (![0, 0, 0] : Fin 3 → Nat) = fun _ => 0 := by funext a; fin_cases a <;> rfl
/-- One whole-buffer store covers the buffer; so do two. -/
theorem coverW (p : Vec F S4x1024 .f32) (y : S4x1024.Idx) :
    ∃ pc ∈ ([⟨rW, p⟩] : List (View.Piece (Elt F) S4x1024 .f32)), y ∈ pc.1.set :=
  View.cover_of_tiled [⟨rW, p⟩] S4x1024.size (by rfl) y
theorem coverW2 (p q : Vec F S4x1024 .f32) (y : S4x1024.Idx) :
    ∃ pc ∈ ([⟨rW, p⟩, ⟨rW, q⟩] : List (View.Piece (Elt F) S4x1024 .f32)), y ∈ pc.1.set := by
  obtain ⟨pc, hpc, hy⟩ := coverW p y
  rw [List.mem_singleton] at hpc; subst hpc
  exact ⟨_, List.Mem.head _, hy⟩

set_option maxHeartbeats 1000000 in
/-- FIRST COLUMN: whatever the scratch held, it ends at the tile's minima taken against +∞; the output buffer is untouched. -/
theorem runA (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : cond1_0 i) (hc1 : ¬cond1_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 (k1_pay1 (F := F)))) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (coverW2 _ _), View.canon_cons_unit_zero (S := S4x1024) hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

set_option maxHeartbeats 1000000 in
/-- MIDDLE COLUMNS: the scratch ends at the minimum of what it held and the tile's minima; the output buffer is untouched. -/
theorem runB (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : ¬cond1_0 i) (hc1 : ¬cond1_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare xi ∗ owns (c : Thread nD τ) arg5 fullShare (k1_pay2 x0 x1 xs)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  rw [View.read_writes_eq_canon _ _ _ (coverW _), View.canon_unit_zero hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

set_option maxHeartbeats 1000000 in
/-- LAST COLUMN: the scratch is updated as in the middle columns and then copied whole into the output buffer. -/
theorem runC (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)
    (hc0 : ¬cond1_0 i) (hc1 : cond1_1 i)
    (x0 : Vec F S4x1024x3 .f32) (x1 : Vec F S4x512x3 .f32) (xi : Vec F S4x1024 .f32) (xs : Vec F S4x1024 .f32) (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare xs
        ∗ (iprop(owns (c : Thread nD τ) arg2 fullShare x0 ∗ owns (c : Thread nD τ) arg3 fullShare x1 ∗ owns (c : Thread nD τ) arg4 fullShare (k1_pay2 x0 x1 xs) ∗ owns (c : Thread nD τ) arg5 fullShare (k1_pay2 x0 x1 xs)) -∗ K ⟨⟩))
      ⊢ wp frame (wpE (defs₀ (F := F)) Variants.none c none) E (cc1__chamfer_min_kernel i arg2 harg2 arg3 harg3 arg4 harg4 arg5 harg5) K := by
  simp only [cc1__chamfer_min_kernel_eq_skeleton]; unfold cc1__chamfer_min_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (coverW _), View.canon_unit_zero hz2]
    simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]
  iexists _; isplitr
  swap; · iexact HS
  ipureintro
  sl_unfold_words
  rw [View.read_writes_eq_canon _ _ _ (coverW _), View.canon_unit_zero hz2]
  simp only [View.readAt_eq_ld, harg2.read_unread, harg3.read_unread, harg4.read_unread, harg5.read_unread, View.ld_unit_zero (S := S4x1024x3) hz3, View.ld_unit_zero (S := S4x512x3) hz3, View.ld_unit_zero (S := S4x1024) hz2, View.readCov_unit_zero (S := S4x1024) _ hz2]

/-! ## The staging memrefs at a point, the scratch, and the class invariant spelt out -/

abbrev ms1_0 (t : Fin cfg1.N) : Memref sig .tc .vmem S4x1024x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1024 .f32 := win1_2.stage (cfg1.slots t 2)
abbrev hs1_2 (t : Fin cfg1.N) : (ms1_2 t).IsWhole := hstage1_2 ((cfg1.slots t 2).cast nbuf1_2)
/-- The running-minimum scratch. -/
abbrev scM1 : Memref sig .tc .vmem S4x1024 .f32 := Memref.whole cc1_scratch0

/-- The scoped buffers the region neither stages nor uses (the other pallas_call's), each at some contents. -/
abbrev otherRest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant: the scratch at some contents, the other scoped buffers, the generator register. -/
theorem PhiA1_eq (c : Dev nD) :
    (Pipeline.ΦA spec1 c : sProp 𝕄)
      = iprop(iprop((∃ d, owns (c : Thread nD τ) scM1 fullShare d) ∗ otherRest1 c) ∗ (∃ r, prngReg c r)) := by
  unfold Pipeline.ΦA
  rw [Pipeline.scopedRest_eq_of_list spec1 c [cc1_scratch0, cc0_stg0_0, cc0_stg0_1, cc0_stg1_0, cc0_stg1_1, cc0_stg2_0, cc0_stg2_1, cc0_scratch0] (by decide) (by decide)]
  simp only [scM1, owns_whole]; try rfl

section Region
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The running minimum, point by point -/

/-- What the scratch holds after the body at point `n`: in the first column the tile's minima against +∞, elsewhere against
    what the point before left. -/
def accAt1 (c : Dev nD) : (n : ℕ) → n < cfg1.N → Vec F S4x1024 .f32
  | 0, hn => k1_pay2 (iblk1 V c 0 ⟨0, hn⟩) (iblk1 V c 1 ⟨0, hn⟩) (k1_pay1 (F := F))
  | n + 1, hn =>
    if (n + 1) % 16 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

theorem accAt1_first (c : Dev nD) (t : Fin cfg1.N) (h : t.val % 16 = 0) :
    accAt1 V c t.val t.isLt = k1_pay2 (iblk1 V c 0 t) (iblk1 V c 1 t) (k1_pay1 (F := F)) := by
  obtain ⟨n, hn⟩ := t
  cases n with
  | zero => rfl
  | succ n => exact if_pos h

theorem accAt1_next (c : Dev nD) (t : Fin cfg1.N) (h : ¬t.val % 16 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact if_neg h

/-- The region invariant before position `n`: the class's before the first point; afterwards the scratch at what the point
    before left, the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ otherRest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ otherRest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ otherRest1 c) ∗ (∃ r, prngReg c r)) := by
  cases n with
  | zero => exact absurd rfl hz
  | succ n => rfl

/-! ## The proof data -/

/-- The arrays as the region finds them; after the body each input's buffer at its block and the output's at the running
    minimum (consulted only in the last column, where the body stores it); the invariant carrying the scratch. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt1 V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region

section Obligation
variable (V : (c : Dev nD) → (b : Ref sig .tc) → Buf (Elt F) ((c : Thread nD τ).loc b))

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the column decides the case; the invariant hands the body
    the scratch at what the point before left (at anything at the very first point, and the first column does not read it)
    and takes it back at this point's running minimum; in the last column the output buffer receives it, elsewhere it is
    handed back untouched; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 128 := lt_of_lt_of_eq t.isLt (show cfg1.N = 128 from N_1)
  by_cases h1 : t.val % 16 = 15
  · have h0 : ¬t.val % 16 = 0 := by omega
    have hz : t.val ≠ 0 := by omega
    rw [show (dat1 V c).leavesExact 2 t = owns (c : Thread nD τ) (ms1_2 t) fullShare ((dat1 V c).after 2 t) from by
      unfold Dat.leavesExact; rw [liveAt1_2 t ((hcond1_1 t).mpr h1)], after1_2]
    rw [accAt1_next V c t h0]
    rw [PhiS1_castSucc V c t, PhiS1_pos V c _ _ hz]
    iintro ⟨⟨⟨HS, Hrest⟩, Hg⟩, Ho, ⟨%d0, H0⟩, ⟨%d1, H1⟩, ⟨%d2, H2⟩⟩
    iapply (runC c (grid1.coords t) _ (hs1_0 t) _ (hs1_1 t) _ (hs1_2 t) scM1 (Memref.isWhole_whole _) (fun h => h0 ((hcond1_0 t).mp h)) ((hcond1_1 t).mpr h1) (iblk1 V c 0 t) (iblk1 V c 1 t) _ _ Set.univ _)
    isplitl [H0]; · iexact H0
    isplitl [H1]; · iexact H1
    isplitl [H2]; · iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat1 V c) 2 t (idleAt1_2 t (fun h => h1 ((hcond1_1 t).mp h))) (noFlush1_2 t (fun h => h1 ((hcond1_1 t).mp h)))]
    by_cases h0 : t.val % 16 = 0
    · rw [accAt1_first V c t h0]
      by_cases hz : t.val = 0
      · rw [PhiS1_castSucc V c t, PhiS1_zero V c _ _ hz, PhiA1_eq]
        iintro ⟨⟨⟨⟨%ds, HS⟩, Hrest⟩, Hg⟩, Ho, ⟨%d0, H0⟩, ⟨%d1, H1⟩, ⟨%d2, H2⟩⟩
        iapply (runA c (grid1.coords t) _ (hs1_0 t) _ (hs1_1 t) _ (hs1_2 t) scM1 (Memref.isWhole_whole _) ((hcond1_0 t).mpr h0) (fun h => h1 ((hcond1_1 t).mp h)) (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS, Hrest⟩, Hg⟩, Ho, ⟨%d0, H0⟩, ⟨%d1, H1⟩, ⟨%d2, H2⟩⟩
        iapply (runA c (grid1.coords t) _ (hs1_0 t) _ (hs1_1 t) _ (hs1_2 t) scM1 (Memref.isWhole_whole _) ((hcond1_0 t).mpr h0) (fun h => h1 ((hcond1_1 t).mp h)) (iblk1 V c 0 t) (iblk1 V c 1 t) _ _ Set.univ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · have hz : t.val ≠ 0 := fun e => h0 (by rw [e])
      rw [accAt1_next V c t h0]
      rw [PhiS1_castSucc V c t, PhiS1_pos V c _ _ hz]
      iintro ⟨⟨⟨HS, Hrest⟩, Hg⟩, Ho, ⟨%d0, H0⟩, ⟨%d1, H1⟩, ⟨%d2, H2⟩⟩
      iapply (runB c (grid1.coords t) _ (hs1_0 t) _ (hs1_1 t) _ (hs1_2 t) scM1 (Memref.isWhole_whole _) (fun h => h0 ((hcond1_0 t).mp h)) (fun h => h1 ((hcond1_1 t).mp h)) (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, Hrest⟩, Hg⟩
  isplitl [HS Hrest]
  · isplitl [HS]; · iexists _; iexact HS
    iexact Hrest
  iexact Hg

theorem hout1 (c : Dev nD) : (dat1 V c).Φ (Fin.last cfg1.N) ⊢ Pipeline.ΦA spec1 c :=
  Phi_out1 V c _ (by rw [Fin.val_last]; have : cfg1.N = 128 := N_1; omega)

end Obligation

end Cert.KernelIdeal.Reg1

end
-- ==== Proof.Run.lean ====
/-
  The whole run of @main at ANY float instance: two kernel regions, then nine host operations.

  The buffers' contents at the four boundaries are a fold from the launch memory: region 0 changes only its output array
  `main_v0` (to what its write-backs leave), region 1 only `main_v1`, and the host stretch writes the scalars that end in the
  result. Each region is entered from "every unscoped buffer at the boundary's contents" and left at the next boundary's; the
  launch theorem for a list of segments then gives: every weakly fair execution terminates, and the final memory holds every
  unscoped buffer at the last boundary's contents. The frame claim reads the two arguments off that, a value claim the result.
-/
import proofs.«116434_j28114855920185_1_alg».proof.Proof.Body0
import proofs.«116434_j28114855920185_1_alg».proof.Proof.Body1
import proofs.«116434_j28114855920185_1_alg».proof.Proof.Gen.KernelIdeal.Regions

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (region 0's entry). -/
abbrev B0 : Dev nD → Valuation τ sig (Elt F) := fun c b => m ((c : Dev nD), b)
/-- The same read at the TensorCore's references. -/
abbrev U0 : (c : Dev nD) → (b : Ref sig .tc) → Buf (Elt F) ((c : Thread nD τ).loc b) := fun c b => B0 m c b
/-- At region 0's exit: its arrays at what the pipeline leaves, every other buffer as entered. -/
def B1 (c : Dev nD) : Valuation τ sig (Elt F) :=
  Pipeline.withArrays spec0 c (B0 m c) fun w => (Reg0.dat0 (U0 m) c).arrAt w cfg0.N
theorem B1_arr (c : Dev nD) (w : Fin cfg0.W) :
    B1 m c (Proc.devRef .tc (Pipeline.arrRef spec0 w)) = (Reg0.dat0 (U0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
abbrev U1 : (c : Dev nD) → (b : Ref sig .tc) → Buf (Elt F) ((c : Thread nD τ).loc b) := fun c b => B1 m c b
theorem hF0 (c : Dev nD) (w : Fin cfg0.W) : (Reg0.dat0 (U0 m) c).arrAt w cfg0.N = U1 m c (Pipeline.arrRef spec0 w) :=
  (B1_arr m c w).symm
theorem hrest0 (c : Dev nD) : ∀ b, b ∉ Finset.univ.image (Pipeline.arrRef spec0) → U1 m c b = U0 m c b :=
  fun b hb => B1_of_ne m c b fun w e => hb (Finset.mem_image.mpr ⟨w, Finset.mem_univ _, e⟩)

/-- Region 0 leaves both argument arrays as it found them (it reads them through input windows). -/
theorem U1_main_arg0 (c : Dev nD) : U1 m c main_arg0 = m ((c : Thread nD τ).loc main_arg0) :=
  (B1_arr m c 0).trans (((Reg0.dat0 (U0 m) c).arrAt_in 0 rfl _).trans (Reg0.A_eq0 (U0 m) c 0))
theorem U1_main_arg1 (c : Dev nD) : U1 m c main_arg1 = m ((c : Thread nD τ).loc main_arg1) :=
  (B1_arr m c 1).trans (((Reg0.dat0 (U0 m) c).arrAt_in 1 rfl _).trans (Reg0.A_eq0 (U0 m) c 1))

/-- At region 1's exit likewise, from region 0's exit contents. -/
def B2 (c : Dev nD) : Valuation τ sig (Elt F) :=
  Pipeline.withArrays spec1 c (B1 m c) fun w => (Reg1.dat1 (U1 m) c).arrAt w cfg1.N
theorem B2_arr (c : Dev nD) (w : Fin cfg1.W) :
    B2 m c (Proc.devRef .tc (Pipeline.arrRef spec1 w)) = (Reg1.dat1 (U1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
abbrev U2 : (c : Dev nD) → (b : Ref sig .tc) → Buf (Elt F) ((c : Thread nD τ).loc b) := fun c b => B2 m c b
theorem hF1 (c : Dev nD) (w : Fin cfg1.W) : (Reg1.dat1 (U1 m) c).arrAt w cfg1.N = U2 m c (Pipeline.arrRef spec1 w) :=
  (B2_arr m c w).symm
theorem hrest1 (c : Dev nD) : ∀ b, b ∉ Finset.univ.image (Pipeline.arrRef spec1) → U2 m c b = U1 m c b :=
  fun b hb => B2_of_ne m c b fun w e => hb (Finset.mem_image.mpr ⟨w, Finset.mem_univ _, e⟩)

/-- After the host stretch: the end of @main. -/
abbrev B3 : Dev nD → Valuation τ sig (Elt F) := fun c => StableHlo.after hostOps2 (B2 m c)

/-! ### The arguments end as launched: each region reads them through input windows, the host stretch writes neither -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := StableHlo.after_of_writes_sub hostOps2 _ hostOps2_writes (r := main_arg0) (by decide)
    _ = B1 m c (Proc.devRef .tc main_arg0) := (B2_arr m c 1).trans (((Reg1.dat1 (U1 m) c).arrAt_in 1 rfl _).trans (Reg1.A_eq1 (U1 m) c 1))
    _ = B0 m c (Proc.devRef .tc main_arg0) := (B1_arr m c 0).trans (((Reg0.dat0 (U0 m) c).arrAt_in 0 rfl _).trans (Reg0.A_eq0 (U0 m) c 0))
    _ = m ((c : Thread nD τ).loc main_arg0) := rfl

theorem B3_main_arg1 (c : Dev nD) : B3 m c (Proc.devRef .tc main_arg1) = m ((c : Thread nD τ).loc main_arg1) :=
  calc B3 m c (Proc.devRef .tc main_arg1)
    _ = B2 m c (Proc.devRef .tc main_arg1) := StableHlo.after_of_writes_sub hostOps2 _ hostOps2_writes (r := main_arg1) (by decide)
    _ = B1 m c (Proc.devRef .tc main_arg1) := (B2_arr m c 0).trans (((Reg1.dat1 (U1 m) c).arrAt_in 0 rfl _).trans (Reg1.A_eq1 (U1 m) c 0))
    _ = B0 m c (Proc.devRef .tc main_arg1) := (B1_arr m c 1).trans (((Reg0.dat0 (U0 m) c).arrAt_in 1 rfl _).trans (Reg0.A_eq0 (U0 m) c 1))
    _ = m ((c : Thread nD τ).loc main_arg1) := rfl

/-- The two regions' outputs as the host stretch finds them: region 0's survives region 1, which does not touch it. -/
theorem B2_main_v0 (c : Dev nD) : B2 m c (Proc.devRef .tc main_v0) = (Reg0.dat0 (U0 m) c).arrAt 2 cfg0.N :=
  (B2_of_ne m c main_v0 (by decide)).trans (B1_arr m c 2)
theorem B2_main_v1 (c : Dev nD) : B2 m c (Proc.devRef .tc main_v1) = (Reg1.dat1 (U1 m) c).arrAt 2 cfg1.N :=
  B2_arr m c 2

/-! ## The proof data family and the thread state -/

/-- Every pipeline's proof data, each at its region's entry contents — a literal `match`. -/
def pdats : (p : Fin 2) → (c : Dev nD) → Dat τ (Elt F) Unit ℕ (UR sig nD τ) ℕ (Pipeline.pin (pcfgs (F := F)) adm p) c
  | ⟨0, _⟩ => fun c => Reg0.dat0 (U0 m) c
  | ⟨1, _⟩ => fun c => Reg1.dat1 (U1 m) c
/-- No core owes another anything: no level is assigned. -/
abbrev L0 : GSem nD τ sig → Finset Unit := fun _ => ∅
abbrev lv0 : GSem nD τ sig → Unit → ℕ := fun _ _ => 0
/-- What rides beside the buffers through every segment: the generator register at some state and the core's `owes`, at nothing. -/
abbrev Rest (c : Dev nD) : sProp 𝕄 := iprop((∃ r, prngReg c r) ∗ ∃ W, owes (c : Thread nD τ) (0 : CellTallies nD τ sig Unit) W)
/-- A host stretch as a segment over the unscoped references from the contents `W`, `Rest` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- `iapply` of a library lemma stated over `pin pcs a p` unifies with the pinned configuration only when unification may
-- unfold plain definitions in a metavariable's type
set_option backward.isDefEq.respectTransparency.types false in
/-- Region 0 over the thread state "every unscoped buffer at the boundary's contents, the generator register at some state,
    nothing owed": its arrays are split out of the unscoped buffers at entry and put back at what the write-backs leave at
    exit; the generator register and the scoped buffers go into the region's invariant and come back. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (Reg0.body_obligation0 (U0 m) c).loose
  hwaits := Pipeline.hwaits_of_owed_zero _ _ _ _ L0 lv0 0 fun _ _ => rfl
  pre c := iprop(StableHlo.held (c : Thread nD τ) (Pipeline.ucRefs τ sig) (B0 m c) ∗ Rest c)
  post c := iprop(StableHlo.held (c : Thread nD τ) (Pipeline.ucRefs τ sig) (B1 m c) ∗ Rest c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (Reg0.dat0 (U0 m) c).Φ 0 from rfl]
    iintro ⟨Hp, -, Hr⟩
    iapply (Reg0.hin0 (U0 m) c)
    unfold Pipeline.ΦA
    isplitl [Hr]; · iexact Hr
    iexact Hp
  hout c := by
    rw [Pipeline.ownSems0_none, show (pdats m 0 c).Φ (Fin.last _) = (Reg0.dat0 (U0 m) c).Φ (Fin.last cfg0.N) from rfl]
    have hh := Reg0.hout0 (U0 m) c
    iintro H
    ihave H2 := hh $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state "every unscoped buffer at the boundary's contents, the generator register at some state,
    nothing owed": its arrays are split out of the unscoped buffers at entry and put back at what the write-backs leave at
    exit; the generator register and the scoped buffers go into the region's invariant and come back. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (Reg1.body_obligation1 (U1 m) c).loose
  hwaits := Pipeline.hwaits_of_owed_zero _ _ _ _ L0 lv0 1 fun _ _ => rfl
  pre c := iprop(StableHlo.held (c : Thread nD τ) (Pipeline.ucRefs τ sig) (B1 m c) ∗ Rest c)
  post c := iprop(StableHlo.held (c : Thread nD τ) (Pipeline.ucRefs τ sig) (B2 m c) ∗ Rest c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (Reg1.dat1 (U1 m) c).Φ 0 from rfl]
    iintro ⟨Hp, -, Hr⟩
    iapply (Reg1.hin1 (U1 m) c)
    unfold Pipeline.ΦA
    isplitl [Hr]; · iexact Hr
    iexact Hp
  hout c := by
    rw [Pipeline.ownSems0_none, show (pdats m 1 c).Φ (Fin.last _) = (Reg1.dat1 (U1 m) c).Φ (Fin.last cfg1.N) from rfl]
    have hh := Reg1.hout1 (U1 m) c
    iintro H
    ihave H2 := hh $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order. -/
abbrev segList : List (Pipeline.Seg (pcfgs (F := F)) adm (pdats m) () defs₀ Variants.none L0 lv0) :=
  [ .region (reg0 m),
    .region (reg1 m),
    .host (hseg hostOps2 hostOps2_sub hostOps2_fresh (B2 m)) ]
/-- @main IS the run of the segments. -/
theorem main_run (c : Dev nD) : main (F := F) c = Pipeline.Seg.run (segList m) := (main_chain c).trans (by chain_rfl)

variable (ρ : Dev nD → PrngReg)

-- the launch theorem's implicit arguments are found by unifying its conclusion with this one, which takes unfolding
-- plain definitions in a metavariable's type
set_option backward.isDefEq.respectTransparency.types false in
/-- THE RUN: from any memory with zero counters every weakly fair execution of @main terminates, nothing faulting, and the
    final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ Variants.none L0 lv0 m ρ main (segList m)
    (fun c Q => by rw [main_run m c])
    (by simp only [segList, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c))
    (Tₙ := fun c => StableHlo.held (c : Thread nD τ) (Pipeline.ucRefs τ sig) (B3 m c))
    (hch := ⟨fun _ => .rfl, fun _ => .rfl, fun _ => .rfl, fun c => sep_mono .rfl (by iintro ⟨-, H⟩; iexact H)⟩)
    (hinit := by
      refine Pipeline.initEach L0 lv0 fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨Hh, HSI⟩
      unfold StableHlo.held
      imodintro
      iapply (pointsTo_read_all (Pipeline.ucRefs τ sig) (fun b => (((c : Thread nD τ)).1, b)) (B3 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m c),
     (h c _ (mem_uc main_arg1 (by decide))).trans (B3_main_arg1 m c)⟩) (run_all m ρ)

end Cert.KernelIdeal.Run

end
-- ==== Proof.Spec.lean ====
/-
  The mathematics both programs compute, stated once over the literal shapes.

  For two clouds `X`, `Y` of 8192 points of ℝ³ in each of 4 batches (entries read as extended reals), the clamped
  squared distance between point `n` of `X` and point `m` of `Y` is spelt by both programs as
  `max ((‖x_n‖² + ‖y_m‖²) − 2·⟨x_n, y_m⟩) 0`, and `near X Y b n` is its minimum over all `m`, folded from +∞: the
  distance from `x_n` to its nearest neighbour in `Y`. The chamfer value is the mean of `near X Y` plus the mean
  of `near Y X`; the two means are the same host operations in both programs and are never opened.
-/
import Idealize.ShloMosaic.PureOps.Ideal
import Idealize.ShloMosaic.Lib.ValueIdx

noncomputable section

namespace Cert.Chamfer

open Idealize.ShloMosaic Idealize.ShloMosaic.ValueIdx

/-- A cloud array: batch, point, coordinate. -/
abbrev SCloud : Shape := ⟨3, ![4, 8192, 3]⟩
/-- One number per point of every batch. -/
abbrev SPts : Shape := ⟨2, ![4, 8192]⟩

/-- The programs' literals, never evaluated: +∞, 2 and 0 as f32 words. -/
abbrev pinf : EReal := Ideal.ofBits .f32 0x7F800000#32
abbrev two : EReal := Ideal.ofBits .f32 0x40000000#32
abbrev zero : EReal := Ideal.ofBits .f32 0x00000000#32

/-- ‖x_n‖² in batch `b`. -/
def sq (X : SCloud.Idx → EReal) (b : Fin 4) (n : Fin 8192) : EReal :=
  ∑ d : Fin 3, X (ix3 b n d) * X (ix3 b n d)

/-- ⟨x_n, y_m⟩ in batch `b`. -/
def dot (X Y : SCloud.Idx → EReal) (b : Fin 4) (n m : Fin 8192) : EReal :=
  ∑ d : Fin 3, X (ix3 b n d) * Y (ix3 b m d)

/-- The clamped squared distance, in the programs' spelling. -/
def dist (X Y : SCloud.Idx → EReal) (b : Fin 4) (n m : Fin 8192) : EReal :=
  max ((sq X b n + sq Y b m) - two * dot X Y b n m) zero

/-- The distance from point `n` of `X` to its nearest neighbour in `Y`: the minimum over `m`, from +∞. -/
def near (X Y : SCloud.Idx → EReal) (b : Fin 4) (n : Fin 8192) : EReal :=
  (Finset.univ : Finset (Fin 8192)).fold min pinf (fun m => dist X Y b n m)

/-- The same as an array over (batch, point). -/
def nearArr (X Y : SCloud.Idx → EReal) : SPts.Idx → EReal :=
  fun i => near X Y (i 0) (i 1)

/-- One tile of the kernel: rows `x` (a block of 1024 points) against columns `y` (a block of 512 points) — the clamped
    squared distances of row `r` to the tile's 512 columns, minimised from +∞. -/
def tileMin (x : (⟨3, ![4, 1024, 3]⟩ : Shape).Idx → EReal) (y : (⟨3, ![4, 512, 3]⟩ : Shape).Idx → EReal) (b : Fin 4) (r : Fin 1024) : EReal :=
  (Finset.univ : Finset (Fin 512)).fold min pinf (fun c =>
    max (((∑ d : Fin 3, x (ix3 b r d) * x (ix3 b r d)) + (∑ d : Fin 3, y (ix3 b c d) * y (ix3 b c d)))
      - two * (∑ d : Fin 3, x (ix3 b r d) * y (ix3 b c d))) zero)

theorem nearArr_ix2 (X Y : SCloud.Idx → EReal) (b : Fin 4) (n : Fin 8192) : nearArr X Y (ix2 b n) = near X Y b n := rfl

end Cert.Chamfer

end
-- ==== Proof.PayIdx.lean ====
/-
  The kernel's arithmetic read at an index, at the ideal instance (a float is an extended real).

  Both kernels keep, per batch b and row r of a block of 1024 points, a running minimum over tiles of 512 columns.
  The first store of a row writes +∞. Every later store writes min(s[b,r], m[b,r]) where s is the stored value and
  m[b,r] = min over the tile's columns c of max((Σ_d x[b,r,d]² + Σ_d y[b,c,d]²) − 2·Σ_d x[b,r,d]·y[b,c,d], 0):
  the format change before the product is the identity on extended reals, a lane sum from the zero word is the bare
  sum, the batched product into a zero block is Σ_d x·y with batch b on both sides, the casts [4,1024]→[4,1024,1]
  and [4,512]→[4,1,512] followed by the broadcasts to [4,1024,512] read the row sums at (b, r) and the column sums at
  (b, c), and the last cast [4,1024]→[4,1024] is the identity. The words for 2 and 0 are kept as words.
-/
import proofs.«116434_j28114855920185_1_alg».proof.Proof.Spec
import proofs.«116434_j28114855920185_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Chamfer.Pay

open Cert.KernelIdeal Cert.KernelIdeal.Gen Idealize.ShloMosaic Idealize.ShloMosaic.ValueIdx Cert.Chamfer

variable [Cert.KernelIdeal.Facts]

/-- The index over (b, r) with lane coordinate d inserted on the last axis is (b, r, d). -/
theorem lift_x (b : Fin 4) (r : Fin 1024) (d : Fin 3) :
    reduces_S4x1024x3_S4x1024.lift (ix2 b r) d = ix3 b r d :=
  funext fun a => Fin.ext (by match a with | ⟨0, _⟩ => rfl | ⟨1, _⟩ => rfl | ⟨2, _⟩ => rfl)

theorem lift_y (b : Fin 4) (c : Fin 512) (d : Fin 3) :
    reduces_S4x512x3_S4x512.lift (ix2 b c) d = ix3 b c d :=
  funext fun a => Fin.ext (by match a with | ⟨0, _⟩ => rfl | ⟨1, _⟩ => rfl | ⟨2, _⟩ => rfl)

theorem lift_m (b : Fin 4) (r : Fin 1024) (c : Fin 512) :
    reduces_S4x1024x512_S4x1024.lift (ix2 b r) c = ix3 b r c :=
  funext fun a => Fin.ext (by match a with | ⟨0, _⟩ => rfl | ⟨1, _⟩ => rfl | ⟨2, _⟩ => rfl)

/-- A lane sum of a [4,1024,3] block from the zero word is the bare sum over the three lanes. -/
theorem sum_x (src : FVec Ideal S4x1024x3 .f32) (b : Fin 4) (r : Fin 1024) :
    multiReduction (F := Ideal) .add [2] S4x1024 src 0x00000000#32 reduces_S4x1024x3_S4x1024 (.inl rfl) rfl (ix2 b r)
      = ∑ d : Fin 3, src (ix3 b r d) :=
  (Ideal.multiReduction_add_single src _ reduces_S4x1024x3_S4x1024 (.inl rfl) rfl (ix2 b r)).trans
    (Finset.sum_congr rfl fun d _ => congrArg src (lift_x b r d))

theorem sum_y (src : FVec Ideal S4x512x3 .f32) (b : Fin 4) (c : Fin 512) :
    multiReduction (F := Ideal) .add [2] S4x512 src 0x00000000#32 reduces_S4x512x3_S4x512 (.inl rfl) rfl (ix2 b c)
      = ∑ d : Fin 3, src (ix3 b c d) :=
  (Ideal.multiReduction_add_single src _ reduces_S4x512x3_S4x512 (.inl rfl) rfl (ix2 b c)).trans
    (Finset.sum_congr rfl fun d _ => congrArg src (lift_y b c d))

/-- A lane minimum of a [4,1024,512] block from the +∞ word is the fold of min over the 512 lanes. -/
theorem min_lane (src : FVec Ideal S4x1024x512 .f32) (b : Fin 4) (r : Fin 1024) :
    multiReduction (F := Ideal) .minimumf [2] S4x1024 src 0x7F800000#32 reduces_S4x1024x512_S4x1024 (.inl rfl) rfl (ix2 b r)
      = (Finset.univ : Finset (Fin 512)).fold min pinf (fun c => src (ix3 b r c)) := by
  refine (multiReduction_minimumf_eq_fold src _ reduces_S4x1024x512_S4x1024 (.inl rfl) rfl (ix2 b r)).trans ?_
  refine (reduces_S4x1024x512_S4x1024.fold_filter_drop_single _ _ src (ix2 b r)).trans ?_
  exact congrArg (fun f => (Finset.univ : Finset (Fin 512)).fold min pinf f) (funext fun c => congrArg src (lift_m b r c))

section Layout
variable {α : Type}

/-- A [4,1024] array cast to [4,1024,1] reads, at (b, r, u), the operand at (b, r). -/
theorem cast_col (v : S4x1024.Idx → α) (b : Fin 4) (r : Fin 1024) (u : Fin 1) :
    shapeCast S4x1024x1 v shapeCasts_S4x1024_S4x1024x1 (ix3 b r u) = v (ix2 b r) :=
  shapeCast_apply v _ _ _ (by
    have hu : u.val = 0 := by omega
    rw [Shape.rowMajor_val_three, Shape.rowMajor_val_two]
    show b.val * 1024 + r.val = (b.val * 1024 + r.val) * 1 + u.val
    rw [hu, Nat.mul_one, Nat.add_zero])

/-- A [4,512] array cast to [4,1,512] reads, at (b, u, c), the operand at (b, c). -/
theorem cast_row (v : S4x512.Idx → α) (b : Fin 4) (u : Fin 1) (c : Fin 512) :
    shapeCast S4x1x512 v shapeCasts_S4x512_S4x1x512 (ix3 b u c) = v (ix2 b c) :=
  shapeCast_apply v _ _ _ (by
    have hu : u.val = 0 := by omega
    rw [Shape.rowMajor_val_three, Shape.rowMajor_val_two]
    show b.val * 512 + c.val = (b.val * 1 + u.val) * 512 + c.val
    rw [hu, Nat.mul_one, Nat.add_zero])

/-- A [4,1024,1] array broadcast to [4,1024,512] reads, at (b, r, c), its one column at (b, r). -/
theorem bcast_col (v : S4x1024x1.Idx → α) (b : Fin 4) (r : Fin 1024) (c : Fin 512) :
    broadcastTo S4x1024x512 v broadcasts_S4x1024x1_S4x1024x512 (ix3 b r c) = v (ix3 b r (0 : Fin 1)) := by
  refine broadcastTo_apply v _ (ix3 b r c) (ix3 b r (0 : Fin 1)) fun ax => ?_
  match ax with
  | ⟨0, _⟩ => rfl
  | ⟨1, _⟩ => rfl
  | ⟨2, _⟩ => rfl

/-- A [4,1,512] array broadcast to [4,1024,512] reads, at (b, r, c), its one row at (b, c). -/
theorem bcast_row (v : S4x1x512.Idx → α) (b : Fin 4) (r : Fin 1024) (c : Fin 512) :
    broadcastTo S4x1024x512 v broadcasts_S4x1x512_S4x1024x512 (ix3 b r c) = v (ix3 b (0 : Fin 1) c) := by
  refine broadcastTo_apply v _ (ix3 b r c) (ix3 b (0 : Fin 1) c) fun ax => ?_
  match ax with
  | ⟨0, _⟩ => rfl
  | ⟨1, _⟩ => rfl
  | ⟨2, _⟩ => rfl

end Layout

/-! The matmul's operand indices at output index i and contraction index q, axis by axis: batch axis 0 on both
sides, the row axis on the left, the column axis on the right, the contracted lane last. -/

theorem lhs_mm_0 (i : S4x1024x512.Idx) (q : dot_S4x1024x3_S4x512x3_S4x1024x512_2_2_1_1_0_0.contr.Idx) :
    (dot_S4x1024x3_S4x512x3_S4x1024x512_2_2_1_1_0_0.lhsIdx i q 0).val = (i 0).val := by
  unfold DotDims.lhsIdx
  rw [dif_pos (show (0 : Fin S4x1024x3.rank) ∈ dot_S4x1024x3_S4x512x3_S4x1024x512_2_2_1_1_0_0.lhsBatch by decide)]
  rfl
theorem lhs_mm_1 (i : S4x1024x512.Idx) (q : dot_S4x1024x3_S4x512x3_S4x1024x512_2_2_1_1_0_0.contr.Idx) :
    (dot_S4x1024x3_S4x512x3_S4x1024x512_2_2_1_1_0_0.lhsIdx i q 1).val = (i 1).val := by
  unfold DotDims.lhsIdx
  rw [dif_neg (show ¬(1 : Fin S4x1024x3.rank) ∈ dot_S4x1024x3_S4x512x3_S4x1024x512_2_2_1_1_0_0.lhsBatch by decide), dif_pos (show (1 : Fin S4x1024x3.rank) ∈ dot_S4x1024x3_S4x512x3_S4x1024x512_2_2_1_1_0_0.lhsNonContracting by decide)]
  rfl
theorem lhs_mm_2 (i : S4x1024x512.Idx) (q : dot_S4x1024x3_S4x512x3_S4x1024x512_2_2_1_1_0_0.contr.Idx) :
    (dot_S4x1024x3_S4x512x3_S4x1024x512_2_2_1_1_0_0.lhsIdx i q 2).val = (q ⟨0, by decide⟩).val :=
  dot_S4x1024x3_S4x512x3_S4x1024x512_2_2_1_1_0_0.lhsIdx_val_of_single rfl i q
theorem rhs_mm_0 (i : S4x1024x512.Idx) (q : dot_S4x1024x3_S4x512x3_S4x1024x512_2_2_1_1_0_0.contr.Idx) :
    (dot_S4x1024x3_S4x512x3_S4x1024x512_2_2_1_1_0_0.rhsIdx i q 0).val = (i 0).val := by
  unfold DotDims.rhsIdx
  rw [dif_pos (show (0 : Fin S4x512x3.rank) ∈ dot_S4x1024x3_S4x512x3_S4x1024x512_2_2_1_1_0_0.rhsBatch by decide)]
  rfl
theorem rhs_mm_1 (i : S4x1024x512.Idx) (q : dot_S4x1024x3_S4x512x3_S4x1024x512_2_2_1_1_0_0.contr.Idx) :
    (dot_S4x1024x3_S4x512x3_S4x1024x512_2_2_1_1_0_0.rhsIdx i q 1).val = (i 2).val := by
  unfold DotDims.rhsIdx
  rw [dif_neg (show ¬(1 : Fin S4x512x3.rank) ∈ dot_S4x1024x3_S4x512x3_S4x1024x512_2_2_1_1_0_0.rhsBatch by decide), dif_pos (show (1 : Fin S4x512x3.rank) ∈ dot_S4x1024x3_S4x512x3_S4x1024x512_2_2_1_1_0_0.rhsNonContracting by decide)]
  rfl
theorem rhs_mm_2 (i : S4x1024x512.Idx) (q : dot_S4x1024x3_S4x512x3_S4x1024x512_2_2_1_1_0_0.contr.Idx) :
    (dot_S4x1024x3_S4x512x3_S4x1024x512_2_2_1_1_0_0.rhsIdx i q 2).val = (q ⟨0, by decide⟩).val :=
  dot_S4x1024x3_S4x512x3_S4x1024x512_2_2_1_1_0_0.rhsIdx_val_of_single rfl i q

/-- The batched product into the zero block, at (b, r, c): the sum over the three lanes of left (b, r, d) times
right (b, c, d). -/
theorem mm_apply (l : FVec Ideal S4x1024x3 .bf16) (rr : FVec Ideal S4x512x3 .bf16) (b : Fin 4) (r : Fin 1024) (c : Fin 512) :
    matmul dot_S4x1024x3_S4x512x3_S4x1024x512_2_2_1_1_0_0 none l rr (constant (F := Ideal) S4x1024x512 .f32 0x00000000#32) (ix3 b r c)
      = ∑ d : Fin 3, l (ix3 b r d) * rr (ix3 b c d) := by
  simp only [matmul]
  rw [Ideal.matmul_constant_zero_apply, ← Equiv.sum_comp (ValueIdx.contrEquiv1 dot_S4x1024x3_S4x512x3_S4x1024x512_2_2_1_1_0_0 3 rfl rfl).symm]
  refine Finset.sum_congr rfl fun k _ => ?_
  have hk := ValueIdx.contrEquiv1_symm_val dot_S4x1024x3_S4x512x3_S4x1024x512_2_2_1_1_0_0 3 rfl rfl k
  have el : dot_S4x1024x3_S4x512x3_S4x1024x512_2_2_1_1_0_0.lhsIdx (ix3 b r c) ((ValueIdx.contrEquiv1 dot_S4x1024x3_S4x512x3_S4x1024x512_2_2_1_1_0_0 3 rfl rfl).symm k) = ix3 b r k := funext fun a => Fin.ext (by
    match a with
    | ⟨0, _⟩ => exact lhs_mm_0 _ _
    | ⟨1, _⟩ => exact lhs_mm_1 _ _
    | ⟨2, _⟩ => exact (lhs_mm_2 _ _).trans hk)
  have er : dot_S4x1024x3_S4x512x3_S4x1024x512_2_2_1_1_0_0.rhsIdx (ix3 b r c) ((ValueIdx.contrEquiv1 dot_S4x1024x3_S4x512x3_S4x1024x512_2_2_1_1_0_0 3 rfl rfl).symm k) = ix3 b c k := funext fun a => Fin.ext (by
    match a with
    | ⟨0, _⟩ => exact rhs_mm_0 _ _
    | ⟨1, _⟩ => exact rhs_mm_1 _ _
    | ⟨2, _⟩ => exact (rhs_mm_2 _ _).trans hk)
  rw [el, er]

/-- The first store of a row: the +∞ word everywhere. -/
theorem k0_pay1_apply (i : S4x1024.Idx) : k0_pay1 (F := Ideal) i = pinf := by
  unfold k0_pay1
  exact congrFun (shapeCast_self _ _) i

/-- The running minimum after one tile: the stored value at (b, r) against the tile's minimum there. -/
theorem k0_pay2_apply (x : Vec Ideal S4x1024x3 .f32) (y : Vec Ideal S4x512x3 .f32) (s : Vec Ideal S4x1024 .f32) (b : Fin 4) (r : Fin 1024) :
    k0_pay2 (F := Ideal) x y s (ix2 b r) = min (s (ix2 b r)) (tileMin x y b r) := by
  unfold k0_pay2
  refine (congrFun (shapeCast_self _ _) (ix2 b r)).trans ?_
  refine (minimumf_apply _ _ (ix2 b r)).trans ?_
  refine congrArg (min (s (ix2 b r))) ?_
  refine (min_lane _ b r).trans ?_
  unfold tileMin
  refine congrArg (fun f => (Finset.univ : Finset (Fin 512)).fold min pinf f) (funext fun c => ?_)
  refine (maximumf_apply _ _ (ix3 b r c)).trans ?_
  refine congrArg₂ max ?_ rfl
  refine (subf_apply _ _ (ix3 b r c)).trans ?_
  refine congrArg₂ (· - ·) ?_ ?_
  · refine (addf_apply _ _ (ix3 b r c)).trans ?_
    refine congrArg₂ (· + ·) ?_ ?_
    · exact (bcast_col _ b r c).trans ((cast_col _ b r 0).trans (sum_x _ b r))
    · exact (bcast_row _ b r c).trans ((cast_row _ b 0 c).trans (sum_y _ b c))
  · refine (mulf_apply _ _ (ix3 b r c)).trans ?_
    refine congrArg₂ (· * ·) rfl ?_
    exact mm_apply _ _ b r c

/-- The second kernel's first store of a row: the +∞ word everywhere. -/
theorem k1_pay1_apply (i : S4x1024.Idx) : k1_pay1 (F := Ideal) i = pinf := by
  unfold k1_pay1
  exact congrFun (shapeCast_self _ _) i

/-- The second kernel's running minimum after one tile: the same arithmetic. -/
theorem k1_pay2_apply (x : Vec Ideal S4x1024x3 .f32) (y : Vec Ideal S4x512x3 .f32) (s : Vec Ideal S4x1024 .f32) (b : Fin 4) (r : Fin 1024) :
    k1_pay2 (F := Ideal) x y s (ix2 b r) = min (s (ix2 b r)) (tileMin x y b r) := by
  unfold k1_pay2
  refine (congrFun (shapeCast_self _ _) (ix2 b r)).trans ?_
  refine (minimumf_apply _ _ (ix2 b r)).trans ?_
  refine congrArg (min (s (ix2 b r))) ?_
  refine (min_lane _ b r).trans ?_
  unfold tileMin
  refine congrArg (fun f => (Finset.univ : Finset (Fin 512)).fold min pinf f) (funext fun c => ?_)
  refine (maximumf_apply _ _ (ix3 b r c)).trans ?_
  refine congrArg₂ max ?_ rfl
  refine (subf_apply _ _ (ix3 b r c)).trans ?_
  refine congrArg₂ (· - ·) ?_ ?_
  · refine (addf_apply _ _ (ix3 b r c)).trans ?_
    refine congrArg₂ (· + ·) ?_ ?_
    · exact (bcast_col _ b r c).trans ((cast_col _ b r 0).trans (sum_x _ b r))
    · exact (bcast_row _ b r c).trans ((cast_row _ b 0 c).trans (sum_y _ b c))
  · refine (mulf_apply _ _ (ix3 b r c)).trans ?_
    refine congrArg₂ (· * ·) rfl ?_
    exact mm_apply _ _ b r c

end Cert.Chamfer.Pay

end
-- ==== Proof.Value0.lean ====
/-
  The value of region 0 of @main at the ideal instance (floats are extended reals), as ONE function of the two clouds
  the region finds in its input arrays: the output array ends holding, at (batch b, point n), the distance from point n
  of the first cloud to its nearest neighbour in the second.

  The grid is 8 × 16 and point t = 16·i + j works on rows [1024 i, 1024 (i+1)) of the first cloud against rows
  [512 j, 512 (j+1)) of the second. The running minimum is reset to +∞ at j = 0 and lowered by each tile's row minima,
  so after point t it is, row by row, the greatest lower bound of +∞ and of the distances to the first 512·(j+1) points
  of the second cloud. That is proved for "a ≤ ·" against every extended real a, which turns every minimum into a
  conjunction and needs no algebra of min. At j = 15 all 8192 points have been met: the running minimum is the
  nearest-neighbour distance, the pipeline writes that block back, and the eight blocks written back tile the output.
-/
import proofs.«116434_j28114855920185_1_alg».proof.Proof.Spec
import proofs.«116434_j28114855920185_1_alg».proof.Proof.Body0
import proofs.«116434_j28114855920185_1_alg».proof.Proof.PayIdx
import Idealize.ShloMosaic.Lib.Pipeline.Value
import Idealize.ShloMosaic.Lib.ValueIdx

set_option maxRecDepth 16384

noncomputable section

namespace Cert.KernelIdeal.Val0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Chamfer Cert.KernelIdeal.Reg0

/-! ## The index maps over the grid -/

/-- The three index maps in closed form: point `t = 16·i + j` takes row block `i = t / 16` of the first cloud and of the
    output, and column block `j = t % 16` of the second cloud; every other block index is 0. -/
theorem idx_facts : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N, _)

/-! ## One tile against the whole clouds -/

/-- A tile whose rows are rows `ro + r` of `A` and whose columns are rows `co + q` of `B` has, as its row minima, the
    minima of the clouds' distances over that stretch of 512 columns. -/
theorem tile_eq (A B : SCloud.Idx → EReal) (x : (⟨3, ![4, 1024, 3]⟩ : Shape).Idx → EReal) (y : (⟨3, ![4, 512, 3]⟩ : Shape).Idx → EReal)
    (ro co : ℕ) (hro : ∀ r : Fin 1024, ro + r.val < 8192) (hco : ∀ q : Fin 512, co + q.val < 8192)
    (hx : ∀ (b : Fin 4) (r : Fin 1024) (d : Fin 3), x (ix3 b r d) = A (ix3 b ⟨ro + r.val, hro r⟩ d))
    (hy : ∀ (b : Fin 4) (q : Fin 512) (d : Fin 3), y (ix3 b q d) = B (ix3 b ⟨co + q.val, hco q⟩ d))
    (b : Fin 4) (r : Fin 1024) :
    tileMin x y b r = (Finset.univ : Finset (Fin 512)).fold min pinf (fun q => Chamfer.dist A B b ⟨ro + r.val, hro r⟩ ⟨co + q.val, hco q⟩) := by
  unfold tileMin Chamfer.dist Chamfer.sq Chamfer.dot
  simp only [hx, hy]

/-- Below a tile's minimum: below +∞ and below every distance of the stretch. -/
theorem le_tile_iff (A B : SCloud.Idx → EReal) (x : (⟨3, ![4, 1024, 3]⟩ : Shape).Idx → EReal) (y : (⟨3, ![4, 512, 3]⟩ : Shape).Idx → EReal)
    (ro co : ℕ) (hro : ∀ r : Fin 1024, ro + r.val < 8192) (hco : ∀ q : Fin 512, co + q.val < 8192)
    (hx : ∀ (b : Fin 4) (r : Fin 1024) (d : Fin 3), x (ix3 b r d) = A (ix3 b ⟨ro + r.val, hro r⟩ d))
    (hy : ∀ (b : Fin 4) (q : Fin 512) (d : Fin 3), y (ix3 b q d) = B (ix3 b ⟨co + q.val, hco q⟩ d))
    (b : Fin 4) (r : Fin 1024) (a : EReal) :
    a ≤ tileMin x y b r ↔ a ≤ pinf ∧ ∀ m : Fin 8192, co ≤ m.val → m.val < co + 512 → a ≤ Chamfer.dist A B b ⟨ro + r.val, hro r⟩ m := by
  rw [tile_eq A B x y ro co hro hco hx hy b r, Finset.le_fold_min]
  refine and_congr Iff.rfl ⟨fun h m h1 h2 => ?_, fun h q _ => h _ (Nat.le_add_right _ _) (by have := q.isLt; show co + q.val < co + 512; omega)⟩
  have hq : m.val - co < 512 := by omega
  have := h ⟨m.val - co, hq⟩ (Finset.mem_univ _)
  have e : (⟨co + (m.val - co), hco ⟨m.val - co, hq⟩⟩ : Fin 8192) = m := Fin.ext (by show co + (m.val - co) = m.val; omega)
  rw [e] at this
  exact this

section Blocks
variable (V : (c : Dev nD) → (b : Ref sig .tc) → Buf (Elt Ideal) ((c : Thread nD τ).loc b))

/-! ## The windows' blocks, read off the arrays -/

/-- Row `r` of the first window's block at point `t` is row `1024·(t/16) + r` of its array. -/
theorem read_x (c : Dev nD) (t : Fin cfg0.N) (b : Fin 4) (r : Fin 1024) (d : Fin 3) (h : 1024 * (t.val / 16) + r.val < 8192) :
    iblk0 V c 0 t (ix3 b r d) = V c (Pipeline.arrRef spec0 0) (ix3 b ⟨1024 * (t.val / 16) + r.val, h⟩ d) := by
  obtain ⟨e0, e1, e2, -⟩ := idx_facts t
  show V c (Pipeline.arrRef spec0 0) (((cfg0.win 0).blk t).view.emb (ix3 b r d)) = _
  congr 1
  funext a; apply Fin.ext
  match a with
  | ⟨0, _⟩ => show win0_0.index t (0 : Fin 3) * 4 + 1 * b.val = b.val; omega
  | ⟨1, _⟩ => show win0_0.index t (1 : Fin 3) * 1024 + 1 * r.val = 1024 * (t.val / 16) + r.val; omega
  | ⟨2, _⟩ => show win0_0.index t (2 : Fin 3) * 3 + 1 * d.val = d.val; omega

/-- Row `q` of the second window's block at point `t` is row `512·(t%16) + q` of its array. -/
theorem read_y (c : Dev nD) (t : Fin cfg0.N) (b : Fin 4) (q : Fin 512) (d : Fin 3) (h : 512 * (t.val % 16) + q.val < 8192) :
    iblk0 V c 1 t (ix3 b q d) = V c (Pipeline.arrRef spec0 1) (ix3 b ⟨512 * (t.val % 16) + q.val, h⟩ d) := by
  obtain ⟨-, -, -, e0, e1, e2, -⟩ := idx_facts t
  show V c (Pipeline.arrRef spec0 1) (((cfg0.win 1).blk t).view.emb (ix3 b q d)) = _
  congr 1
  funext a; apply Fin.ext
  match a with
  | ⟨0, _⟩ => show win0_1.index t (0 : Fin 3) * 4 + 1 * b.val = b.val; omega
  | ⟨1, _⟩ => show win0_1.index t (1 : Fin 3) * 512 + 1 * q.val = 512 * (t.val % 16) + q.val; omega
  | ⟨2, _⟩ => show win0_1.index t (2 : Fin 3) * 3 + 1 * d.val = d.val; omega

/-- The row of the clouds that row `r` of the block at point `n` is. -/
def rowOf (n : ℕ) (hn : n < 128) (r : Fin 1024) : Fin 8192 := ⟨1024 * (n / 16) + r.val, by have := r.isLt; omega⟩

theorem rowOf_pred (n : ℕ) (hn : n < 128) (h : ¬n % 16 = 0) (r : Fin 1024) :
    rowOf (n - 1) (by omega) r = rowOf n hn r :=
  Fin.ext (by show 1024 * ((n - 1) / 16) + r.val = 1024 * (n / 16) + r.val; omega)

/-- Below the tile of point `t`: below +∞ and below the distances from the block's row to columns
    `[512·(t%16), 512·(t%16) + 512)`. -/
theorem le_tileAt_iff (c : Dev nD) (t : Fin cfg0.N) (ht : t.val < 128) (b : Fin 4) (r : Fin 1024) (a : EReal) :
    a ≤ tileMin (iblk0 V c 0 t) (iblk0 V c 1 t) b r
      ↔ a ≤ pinf ∧ ∀ m : Fin 8192, 512 * (t.val % 16) ≤ m.val → m.val < 512 * (t.val % 16) + 512 →
          a ≤ Chamfer.dist (V c (Pipeline.arrRef spec0 0)) (V c (Pipeline.arrRef spec0 1)) b (rowOf t.val ht r) m :=
  le_tile_iff (V c (Pipeline.arrRef spec0 0)) (V c (Pipeline.arrRef spec0 1)) (iblk0 V c 0 t) (iblk0 V c 1 t)
    (1024 * (t.val / 16)) (512 * (t.val % 16)) (fun r => by have := r.isLt; omega) (fun q => by have := q.isLt; omega)
    (fun b r d => read_x V c t b r d _) (fun b q d => read_y V c t b q d _) b r a

end Blocks

section Acc
variable (V : (c : Dev nD) → (b : Ref sig .tc) → Buf (Elt Ideal) ((c : Thread nD τ).loc b))

/-! ## The running minimum in closed form -/

theorem lt_N {n : ℕ} (hn : n < 128) : n < cfg0.N := lt_of_lt_of_eq hn (show cfg0.N = 128 from N_0).symm

/-- One step of the recursion read at an element: the first column starts from +∞, -/
theorem acc_first (c : Dev nD) (n : ℕ) (hn : n < 128) (h : n % 16 = 0) (b : Fin 4) (r : Fin 1024) :
    (accAt0 V c n (lt_N hn) (ix2 b r) : EReal)
      = min pinf (tileMin (iblk0 V c 0 ⟨n, lt_N hn⟩) (iblk0 V c 1 ⟨n, lt_N hn⟩) b r) :=
  ((congrFun (accAt0_first V c ⟨n, lt_N hn⟩ h) (ix2 b r)).trans (Pay.k0_pay2_apply _ _ _ b r)).trans
    (congrArg (fun z => min z (tileMin (iblk0 V c 0 ⟨n, lt_N hn⟩) (iblk0 V c 1 ⟨n, lt_N hn⟩) b r)) (Pay.k0_pay1_apply (ix2 b r)))

/-- the others from what the point before left. -/
theorem acc_next (c : Dev nD) (n : ℕ) (hn : n < 128) (h : ¬n % 16 = 0) (b : Fin 4) (r : Fin 1024) :
    (accAt0 V c n (lt_N hn) (ix2 b r) : EReal)
      = min (accAt0 V c (n - 1) (lt_N (by omega)) (ix2 b r)) (tileMin (iblk0 V c 0 ⟨n, lt_N hn⟩) (iblk0 V c 1 ⟨n, lt_N hn⟩) b r) :=
  (congrFun (accAt0_next V c ⟨n, lt_N hn⟩ h) (ix2 b r)).trans (Pay.k0_pay2_apply _ _ _ b r)

/-- THE INVARIANT. After point `n` of a grid row, element `(b, r)` of the running minimum is the greatest lower bound of +∞
    and the distances from row `1024·(n/16) + r` of the first cloud to the first `512·(n%16 + 1)` rows of the second. -/
theorem le_acc_iff (c : Dev nD) : ∀ (n : ℕ) (hn : n < 128) (b : Fin 4) (r : Fin 1024) (a : EReal),
    a ≤ (accAt0 V c n (lt_N hn) (ix2 b r) : EReal)
      ↔ a ≤ pinf ∧ ∀ m : Fin 8192, m.val < 512 * (n % 16) + 512 →
          a ≤ Chamfer.dist (V c (Pipeline.arrRef spec0 0)) (V c (Pipeline.arrRef spec0 1)) b (rowOf n hn r) m := by
  intro n
  induction n using Nat.strong_induction_on with
  | _ n ih =>
    intro hn b r a
    by_cases h : n % 16 = 0
    · rw [acc_first V c n hn h b r, le_min_iff, le_tileAt_iff V c ⟨n, lt_N hn⟩ hn b r a]
      show a ≤ pinf ∧ (a ≤ pinf ∧ ∀ m : Fin 8192, 512 * (n % 16) ≤ m.val → m.val < 512 * (n % 16) + 512 → _) ↔ _
      rw [h]
      exact ⟨fun ⟨h1, _, h2⟩ => ⟨h1, fun m hm => h2 m (Nat.zero_le _) hm⟩, fun ⟨h1, h2⟩ => ⟨h1, h1, fun m _ hm => h2 m hm⟩⟩
    · rw [acc_next V c n hn h b r, le_min_iff, ih (n - 1) (by omega) (by omega) b r a, le_tileAt_iff V c ⟨n, lt_N hn⟩ hn b r a,
        rowOf_pred n hn h r]
      show (a ≤ pinf ∧ ∀ m : Fin 8192, m.val < 512 * ((n - 1) % 16) + 512 → _)
        ∧ (a ≤ pinf ∧ ∀ m : Fin 8192, 512 * (n % 16) ≤ m.val → m.val < 512 * (n % 16) + 512 → _) ↔ _
      have e : 512 * ((n - 1) % 16) + 512 = 512 * (n % 16) := by omega
      rw [e]
      refine ⟨fun ⟨⟨h1, h2⟩, _, h3⟩ => ⟨h1, fun m hm => ?_⟩, fun ⟨h1, h2⟩ => ⟨⟨h1, fun m hm => h2 m (by omega)⟩, h1, fun m _ hm => h2 m hm⟩⟩
      by_cases hlt : m.val < 512 * (n % 16)
      · exact h2 m hlt
      · exact h3 m (by omega) hm

/-- In the last column the running minimum is the nearest-neighbour distance of the block's rows. -/
theorem acc_last (c : Dev nD) (n : ℕ) (hn : n < 128) (h : n % 16 = 15) (b : Fin 4) (r : Fin 1024) :
    (accAt0 V c n (lt_N hn) (ix2 b r) : EReal)
      = near (V c (Pipeline.arrRef spec0 0)) (V c (Pipeline.arrRef spec0 1)) b (rowOf n hn r) := by
  refine eq_of_forall_le_iff fun a => ?_
  rw [le_acc_iff V c n hn b r a]
  unfold near
  rw [Finset.le_fold_min]
  refine and_congr Iff.rfl ⟨fun h2 m _ => h2 m (by have := m.isLt; omega), fun h2 m _ => h2 m (Finset.mem_univ _)⟩

end Acc

section Final
variable (V : (c : Dev nD) → (b : Ref sig .tc) → Buf (Elt Ideal) ((c : Thread nD τ).loc b))

/-! ## From the blocks to the array -/

/-- WHAT A LAST-COLUMN POINT WRITES BACK is its block of the nearest-neighbour array. -/
theorem flushed_eq (c : Dev nD) (t : Fin cfg0.N) (hf : t.val % 16 = 15) :
    (dat0 V c).flushed 2 t
      = ((cfg0.win 2).blk t).view.read (Elt Ideal) (nearArr (V c (Pipeline.arrRef spec0 0)) (V c (Pipeline.arrRef spec0 1))) := by
  have ht : t.val < 128 := lt_of_lt_of_eq t.isLt (show cfg0.N = 128 from N_0)
  obtain ⟨-, -, -, -, -, -, e0, e1⟩ := idx_facts t
  show (cfg0.win 2).cut (grid0.coords t) ((dat0 V c).after 2 t) = _
  rw [after0_2]
  funext y
  obtain ⟨b, r, rfl⟩ : ∃ (b : Fin 4) (r : Fin 1024), y = ix2 b r := ⟨y 0, y 1, eq_ix2 y⟩
  have hx : (cfg0.win 2).xinj (grid0.coords t) (ix2 b r) = ix2 b r := by
    funext a; match a with | ⟨0, _⟩ => rfl | ⟨1, _⟩ => rfl
  show accAt0 V c t.val t.isLt ((cfg0.win 2).xinj (grid0.coords t) (ix2 b r))
    = near (V c (Pipeline.arrRef spec0 0)) (V c (Pipeline.arrRef spec0 1))
        ((((cfg0.win 2).blk t).view.emb (ix2 b r)) 0) ((((cfg0.win 2).blk t).view.emb (ix2 b r)) 1)
  rw [hx]
  refine (acc_last V c t.val ht hf b r).trans ?_
  have kb : (((cfg0.win 2).blk t).view.emb (ix2 b r)) 0 = b :=
    Fin.ext (by show win0_2.index t (0 : Fin 2) * 4 + 1 * b.val = b.val; omega)
  have kr : (((cfg0.win 2).blk t).view.emb (ix2 b r)) 1 = rowOf t.val ht r :=
    Fin.ext (by show win0_2.index t (1 : Fin 2) * 1024 + 1 * r.val = 1024 * (t.val / 16) + r.val; omega)
  rw [kb, kr]

/-- An index of the array is in point `t`'s block iff each coordinate is in the block's range on its axis. -/
theorem mem_blk (t : Fin cfg0.N) (i : SPts.Idx) :
    i ∈ ((cfg0.win 2).blk t).view.set
      ↔ ∀ a : Fin 2, win0_2.index t a * S4x1024.size a ≤ (i a).val ∧ (i a).val < win0_2.index t a * S4x1024.size a + S4x1024.size a := by
  show i ∈ ((View.whole (Pipeline.arrRef spec0 2)).slice (win0_2.rect t)).set ↔ _
  rw [View.set_slice_whole, Rect.mem_set_unit]
  exact Iff.rfl

/-- THE COVER: element `(b, n)` of the output lies in the block of the last-column point of grid row `n / 1024`. -/
theorem cover (i : SPts.Idx) : ∃ t : Fin cfg0.N, (cfg0.win 2).flush t = true ∧ i ∈ ((cfg0.win 2).blk t).view.set := by
  obtain ⟨b, n, rfl⟩ : ∃ (b : Fin 4) (n : Fin 8192), i = ix2 b n := ⟨i 0, i 1, eq_ix2 i⟩
  have hb := b.isLt
  have hn := n.isLt
  have hN : cfg0.N = 128 := N_0
  have ht : 16 * (n.val / 1024) + 15 < cfg0.N := by rw [hN]; omega
  obtain ⟨-, -, -, -, -, -, e0, e1⟩ := idx_facts ⟨16 * (n.val / 1024) + 15, ht⟩
  refine ⟨⟨16 * (n.val / 1024) + 15, ht⟩, (flush0_2 _).mpr (by show (16 * (n.val / 1024) + 15) % 16 = 15; omega), ?_⟩
  rw [mem_blk]
  intro a
  match a with
  | ⟨0, _⟩ =>
    show win0_2.index ⟨16 * (n.val / 1024) + 15, ht⟩ (0 : Fin 2) * 4 ≤ b.val ∧ b.val < win0_2.index ⟨16 * (n.val / 1024) + 15, ht⟩ (0 : Fin 2) * 4 + 4
    rw [e0]; omega
  | ⟨1, _⟩ =>
    show win0_2.index ⟨16 * (n.val / 1024) + 15, ht⟩ (1 : Fin 2) * 1024 ≤ n.val ∧ n.val < win0_2.index ⟨16 * (n.val / 1024) + 15, ht⟩ (1 : Fin 2) * 1024 + 1024
    rw [e1]
    show (16 * (n.val / 1024) + 15) / 16 * 1024 ≤ n.val ∧ n.val < (16 * (n.val / 1024) + 15) / 16 * 1024 + 1024
    omega

end Final

/-- THE ARRAY after the region: the nearest-neighbour distances of the first cloud's points in the second cloud. -/
theorem final0 (V : (c : Dev nD) → (b : Ref sig .tc) → Buf (Elt Ideal) ((c : Thread nD τ).loc b)) (c : Dev nD) :
    (Reg0.dat0 V c).arrAt 2 cfg0.N = Cert.Chamfer.nearArr (V c (Pipeline.arrRef spec0 0)) (V c (Pipeline.arrRef spec0 1)) :=
  (dat0 V c).arrAt_eq_of_cover 2 _ (fun t hf => flushed_eq V c t ((flush0_2 t).mp hf)) cover

end Cert.KernelIdeal.Val0

end
-- ==== Proof.Value1.lean ====
/-
  The value of region 1 of @main at the ideal instance (floats are extended reals), as ONE function of the two clouds
  the region finds in its input arrays: the output array ends holding, at (batch b, point n), the distance from point n
  of the first cloud to its nearest neighbour in the second.

  The grid is 8 × 16 and point t = 16·i + j works on rows [1024 i, 1024 (i+1)) of the first cloud against rows
  [512 j, 512 (j+1)) of the second. The running minimum is reset to +∞ at j = 0 and lowered by each tile's row minima,
  so after point t it is, row by row, the greatest lower bound of +∞ and of the distances to the first 512·(j+1) points
  of the second cloud. That is proved for "a ≤ ·" against every extended real a, which turns every minimum into a
  conjunction and needs no algebra of min. At j = 15 all 8192 points have been met: the running minimum is the
  nearest-neighbour distance, the pipeline writes that block back, and the eight blocks written back tile the output.
-/
import proofs.«116434_j28114855920185_1_alg».proof.Proof.Spec
import proofs.«116434_j28114855920185_1_alg».proof.Proof.Body1
import proofs.«116434_j28114855920185_1_alg».proof.Proof.PayIdx
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx Cert.Chamfer Cert.KernelIdeal.Reg1

/-! ## The index maps over the grid -/

/-- The three index maps in closed form: point `t = 16·i + j` takes row block `i = t / 16` of the first cloud and of the
    output, and column block `j = t % 16` of the second cloud; every other block index is 0. -/
theorem idx_facts : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N, _)

/-! ## One tile against the whole clouds -/

/-- A tile whose rows are rows `ro + r` of `A` and whose columns are rows `co + q` of `B` has, as its row minima, the
    minima of the clouds' distances over that stretch of 512 columns. -/
theorem tile_eq (A B : SCloud.Idx → EReal) (x : (⟨3, ![4, 1024, 3]⟩ : Shape).Idx → EReal) (y : (⟨3, ![4, 512, 3]⟩ : Shape).Idx → EReal)
    (ro co : ℕ) (hro : ∀ r : Fin 1024, ro + r.val < 8192) (hco : ∀ q : Fin 512, co + q.val < 8192)
    (hx : ∀ (b : Fin 4) (r : Fin 1024) (d : Fin 3), x (ix3 b r d) = A (ix3 b ⟨ro + r.val, hro r⟩ d))
    (hy : ∀ (b : Fin 4) (q : Fin 512) (d : Fin 3), y (ix3 b q d) = B (ix3 b ⟨co + q.val, hco q⟩ d))
    (b : Fin 4) (r : Fin 1024) :
    tileMin x y b r = (Finset.univ : Finset (Fin 512)).fold min pinf (fun q => Chamfer.dist A B b ⟨ro + r.val, hro r⟩ ⟨co + q.val, hco q⟩) := by
  unfold tileMin Chamfer.dist Chamfer.sq Chamfer.dot
  simp only [hx, hy]

/-- Below a tile's minimum: below +∞ and below every distance of the stretch. -/
theorem le_tile_iff (A B : SCloud.Idx → EReal) (x : (⟨3, ![4, 1024, 3]⟩ : Shape).Idx → EReal) (y : (⟨3, ![4, 512, 3]⟩ : Shape).Idx → EReal)
    (ro co : ℕ) (hro : ∀ r : Fin 1024, ro + r.val < 8192) (hco : ∀ q : Fin 512, co + q.val < 8192)
    (hx : ∀ (b : Fin 4) (r : Fin 1024) (d : Fin 3), x (ix3 b r d) = A (ix3 b ⟨ro + r.val, hro r⟩ d))
    (hy : ∀ (b : Fin 4) (q : Fin 512) (d : Fin 3), y (ix3 b q d) = B (ix3 b ⟨co + q.val, hco q⟩ d))
    (b : Fin 4) (r : Fin 1024) (a : EReal) :
    a ≤ tileMin x y b r ↔ a ≤ pinf ∧ ∀ m : Fin 8192, co ≤ m.val → m.val < co + 512 → a ≤ Chamfer.dist A B b ⟨ro + r.val, hro r⟩ m := by
  rw [tile_eq A B x y ro co hro hco hx hy b r, Finset.le_fold_min]
  refine and_congr Iff.rfl ⟨fun h m h1 h2 => ?_, fun h q _ => h _ (Nat.le_add_right _ _) (by have := q.isLt; show co + q.val < co + 512; omega)⟩
  have hq : m.val - co < 512 := by omega
  have := h ⟨m.val - co, hq⟩ (Finset.mem_univ _)
  have e : (⟨co + (m.val - co), hco ⟨m.val - co, hq⟩⟩ : Fin 8192) = m := Fin.ext (by show co + (m.val - co) = m.val; omega)
  rw [e] at this
  exact this

section Blocks
variable (V : (c : Dev nD) → (b : Ref sig .tc) → Buf (Elt Ideal) ((c : Thread nD τ).loc b))

/-! ## The windows' blocks, read off the arrays -/

/-- Row `r` of the first window's block at point `t` is row `1024·(t/16) + r` of its array. -/
theorem read_x (c : Dev nD) (t : Fin cfg1.N) (b : Fin 4) (r : Fin 1024) (d : Fin 3) (h : 1024 * (t.val / 16) + r.val < 8192) :
    iblk1 V c 0 t (ix3 b r d) = V c (Pipeline.arrRef spec1 0) (ix3 b ⟨1024 * (t.val / 16) + r.val, h⟩ d) := by
  obtain ⟨e0, e1, e2, -⟩ := idx_facts t
  show V c (Pipeline.arrRef spec1 0) (((cfg1.win 0).blk t).view.emb (ix3 b r d)) = _
  congr 1
  funext a; apply Fin.ext
  match a with
  | ⟨0, _⟩ => show win1_0.index t (0 : Fin 3) * 4 + 1 * b.val = b.val; omega
  | ⟨1, _⟩ => show win1_0.index t (1 : Fin 3) * 1024 + 1 * r.val = 1024 * (t.val / 16) + r.val; omega
  | ⟨2, _⟩ => show win1_0.index t (2 : Fin 3) * 3 + 1 * d.val = d.val; omega

/-- Row `q` of the second window's block at point `t` is row `512·(t%16) + q` of its array. -/
theorem read_y (c : Dev nD) (t : Fin cfg1.N) (b : Fin 4) (q : Fin 512) (d : Fin 3) (h : 512 * (t.val % 16) + q.val < 8192) :
    iblk1 V c 1 t (ix3 b q d) = V c (Pipeline.arrRef spec1 1) (ix3 b ⟨512 * (t.val % 16) + q.val, h⟩ d) := by
  obtain ⟨-, -, -, e0, e1, e2, -⟩ := idx_facts t
  show V c (Pipeline.arrRef spec1 1) (((cfg1.win 1).blk t).view.emb (ix3 b q d)) = _
  congr 1
  funext a; apply Fin.ext
  match a with
  | ⟨0, _⟩ => show win1_1.index t (0 : Fin 3) * 4 + 1 * b.val = b.val; omega
  | ⟨1, _⟩ => show win1_1.index t (1 : Fin 3) * 512 + 1 * q.val = 512 * (t.val % 16) + q.val; omega
  | ⟨2, _⟩ => show win1_1.index t (2 : Fin 3) * 3 + 1 * d.val = d.val; omega

/-- The row of the clouds that row `r` of the block at point `n` is. -/
def rowOf (n : ℕ) (hn : n < 128) (r : Fin 1024) : Fin 8192 := ⟨1024 * (n / 16) + r.val, by have := r.isLt; omega⟩

theorem rowOf_pred (n : ℕ) (hn : n < 128) (h : ¬n % 16 = 0) (r : Fin 1024) :
    rowOf (n - 1) (by omega) r = rowOf n hn r :=
  Fin.ext (by show 1024 * ((n - 1) / 16) + r.val = 1024 * (n / 16) + r.val; omega)

/-- Below the tile of point `t`: below +∞ and below the distances from the block's row to columns
    `[512·(t%16), 512·(t%16) + 512)`. -/
theorem le_tileAt_iff (c : Dev nD) (t : Fin cfg1.N) (ht : t.val < 128) (b : Fin 4) (r : Fin 1024) (a : EReal) :
    a ≤ tileMin (iblk1 V c 0 t) (iblk1 V c 1 t) b r
      ↔ a ≤ pinf ∧ ∀ m : Fin 8192, 512 * (t.val % 16) ≤ m.val → m.val < 512 * (t.val % 16) + 512 →
          a ≤ Chamfer.dist (V c (Pipeline.arrRef spec1 0)) (V c (Pipeline.arrRef spec1 1)) b (rowOf t.val ht r) m :=
  le_tile_iff (V c (Pipeline.arrRef spec1 0)) (V c (Pipeline.arrRef spec1 1)) (iblk1 V c 0 t) (iblk1 V c 1 t)
    (1024 * (t.val / 16)) (512 * (t.val % 16)) (fun r => by have := r.isLt; omega) (fun q => by have := q.isLt; omega)
    (fun b r d => read_x V c t b r d _) (fun b q d => read_y V c t b q d _) b r a

end Blocks

section Acc
variable (V : (c : Dev nD) → (b : Ref sig .tc) → Buf (Elt Ideal) ((c : Thread nD τ).loc b))

/-! ## The running minimum in closed form -/

theorem lt_N {n : ℕ} (hn : n < 128) : n < cfg1.N := lt_of_lt_of_eq hn (show cfg1.N = 128 from N_1).symm

/-- One step of the recursion read at an element: the first column starts from +∞, -/
theorem acc_first (c : Dev nD) (n : ℕ) (hn : n < 128) (h : n % 16 = 0) (b : Fin 4) (r : Fin 1024) :
    (accAt1 V c n (lt_N hn) (ix2 b r) : EReal)
      = min pinf (tileMin (iblk1 V c 0 ⟨n, lt_N hn⟩) (iblk1 V c 1 ⟨n, lt_N hn⟩) b r) :=
  ((congrFun (accAt1_first V c ⟨n, lt_N hn⟩ h) (ix2 b r)).trans (Pay.k1_pay2_apply _ _ _ b r)).trans
    (congrArg (fun z => min z (tileMin (iblk1 V c 0 ⟨n, lt_N hn⟩) (iblk1 V c 1 ⟨n, lt_N hn⟩) b r)) (Pay.k1_pay1_apply (ix2 b r)))

/-- the others from what the point before left. -/
theorem acc_next (c : Dev nD) (n : ℕ) (hn : n < 128) (h : ¬n % 16 = 0) (b : Fin 4) (r : Fin 1024) :
    (accAt1 V c n (lt_N hn) (ix2 b r) : EReal)
      = min (accAt1 V c (n - 1) (lt_N (by omega)) (ix2 b r)) (tileMin (iblk1 V c 0 ⟨n, lt_N hn⟩) (iblk1 V c 1 ⟨n, lt_N hn⟩) b r) :=
  (congrFun (accAt1_next V c ⟨n, lt_N hn⟩ h) (ix2 b r)).trans (Pay.k1_pay2_apply _ _ _ b r)

/-- THE INVARIANT. After point `n` of a grid row, element `(b, r)` of the running minimum is the greatest lower bound of +∞
    and the distances from row `1024·(n/16) + r` of the first cloud to the first `512·(n%16 + 1)` rows of the second. -/
theorem le_acc_iff (c : Dev nD) : ∀ (n : ℕ) (hn : n < 128) (b : Fin 4) (r : Fin 1024) (a : EReal),
    a ≤ (accAt1 V c n (lt_N hn) (ix2 b r) : EReal)
      ↔ a ≤ pinf ∧ ∀ m : Fin 8192, m.val < 512 * (n % 16) + 512 →
          a ≤ Chamfer.dist (V c (Pipeline.arrRef spec1 0)) (V c (Pipeline.arrRef spec1 1)) b (rowOf n hn r) m := by
  intro n
  induction n using Nat.strong_induction_on with
  | _ n ih =>
    intro hn b r a
    by_cases h : n % 16 = 0
    · rw [acc_first V c n hn h b r, le_min_iff, le_tileAt_iff V c ⟨n, lt_N hn⟩ hn b r a]
      show a ≤ pinf ∧ (a ≤ pinf ∧ ∀ m : Fin 8192, 512 * (n % 16) ≤ m.val → m.val < 512 * (n % 16) + 512 → _) ↔ _
      rw [h]
      exact ⟨fun ⟨h1, _, h2⟩ => ⟨h1, fun m hm => h2 m (Nat.zero_le _) hm⟩, fun ⟨h1, h2⟩ => ⟨h1, h1, fun m _ hm => h2 m hm⟩⟩
    · rw [acc_next V c n hn h b r, le_min_iff, ih (n - 1) (by omega) (by omega) b r a, le_tileAt_iff V c ⟨n, lt_N hn⟩ hn b r a,
        rowOf_pred n hn h r]
      show (a ≤ pinf ∧ ∀ m : Fin 8192, m.val < 512 * ((n - 1) % 16) + 512 → _)
        ∧ (a ≤ pinf ∧ ∀ m : Fin 8192, 512 * (n % 16) ≤ m.val → m.val < 512 * (n % 16) + 512 → _) ↔ _
      have e : 512 * ((n - 1) % 16) + 512 = 512 * (n % 16) := by omega
      rw [e]
      refine ⟨fun ⟨⟨h1, h2⟩, _, h3⟩ => ⟨h1, fun m hm => ?_⟩, fun ⟨h1, h2⟩ => ⟨⟨h1, fun m hm => h2 m (by omega)⟩, h1, fun m _ hm => h2 m hm⟩⟩
      by_cases hlt : m.val < 512 * (n % 16)
      · exact h2 m hlt
      · exact h3 m (by omega) hm

/-- In the last column the running minimum is the nearest-neighbour distance of the block's rows. -/
theorem acc_last (c : Dev nD) (n : ℕ) (hn : n < 128) (h : n % 16 = 15) (b : Fin 4) (r : Fin 1024) :
    (accAt1 V c n (lt_N hn) (ix2 b r) : EReal)
      = near (V c (Pipeline.arrRef spec1 0)) (V c (Pipeline.arrRef spec1 1)) b (rowOf n hn r) := by
  refine eq_of_forall_le_iff fun a => ?_
  rw [le_acc_iff V c n hn b r a]
  unfold near
  rw [Finset.le_fold_min]
  refine and_congr Iff.rfl ⟨fun h2 m _ => h2 m (by have := m.isLt; omega), fun h2 m _ => h2 m (Finset.mem_univ _)⟩

end Acc

section Final
variable (V : (c : Dev nD) → (b : Ref sig .tc) → Buf (Elt Ideal) ((c : Thread nD τ).loc b))

/-! ## From the blocks to the array -/

/-- WHAT A LAST-COLUMN POINT WRITES BACK is its block of the nearest-neighbour array. -/
theorem flushed_eq (c : Dev nD) (t : Fin cfg1.N) (hf : t.val % 16 = 15) :
    (dat1 V c).flushed 2 t
      = ((cfg1.win 2).blk t).view.read (Elt Ideal) (nearArr (V c (Pipeline.arrRef spec1 0)) (V c (Pipeline.arrRef spec1 1))) := by
  have ht : t.val < 128 := lt_of_lt_of_eq t.isLt (show cfg1.N = 128 from N_1)
  obtain ⟨-, -, -, -, -, -, e0, e1⟩ := idx_facts t
  show (cfg1.win 2).cut (grid1.coords t) ((dat1 V c).after 2 t) = _
  rw [after1_2]
  funext y
  obtain ⟨b, r, rfl⟩ : ∃ (b : Fin 4) (r : Fin 1024), y = ix2 b r := ⟨y 0, y 1, eq_ix2 y⟩
  have hx : (cfg1.win 2).xinj (grid1.coords t) (ix2 b r) = ix2 b r := by
    funext a; match a with | ⟨0, _⟩ => rfl | ⟨1, _⟩ => rfl
  show accAt1 V c t.val t.isLt ((cfg1.win 2).xinj (grid1.coords t) (ix2 b r))
    = near (V c (Pipeline.arrRef spec1 0)) (V c (Pipeline.arrRef spec1 1))
        ((((cfg1.win 2).blk t).view.emb (ix2 b r)) 0) ((((cfg1.win 2).blk t).view.emb (ix2 b r)) 1)
  rw [hx]
  refine (acc_last V c t.val ht hf b r).trans ?_
  have kb : (((cfg1.win 2).blk t).view.emb (ix2 b r)) 0 = b :=
    Fin.ext (by show win1_2.index t (0 : Fin 2) * 4 + 1 * b.val = b.val; omega)
  have kr : (((cfg1.win 2).blk t).view.emb (ix2 b r)) 1 = rowOf t.val ht r :=
    Fin.ext (by show win1_2.index t (1 : Fin 2) * 1024 + 1 * r.val = 1024 * (t.val / 16) + r.val; omega)
  rw [kb, kr]

/-- An index of the array is in point `t`'s block iff each coordinate is in the block's range on its axis. -/
theorem mem_blk (t : Fin cfg1.N) (i : SPts.Idx) :
    i ∈ ((cfg1.win 2).blk t).view.set
      ↔ ∀ a : Fin 2, win1_2.index t a * S4x1024.size a ≤ (i a).val ∧ (i a).val < win1_2.index t a * S4x1024.size a + S4x1024.size a := by
  show i ∈ ((View.whole (Pipeline.arrRef spec1 2)).slice (win1_2.rect t)).set ↔ _
  rw [View.set_slice_whole, Rect.mem_set_unit]
  exact Iff.rfl

/-- THE COVER: element `(b, n)` of the output lies in the block of the last-column point of grid row `n / 1024`. -/
theorem cover (i : SPts.Idx) : ∃ t : Fin cfg1.N, (cfg1.win 2).flush t = true ∧ i ∈ ((cfg1.win 2).blk t).view.set := by
  obtain ⟨b, n, rfl⟩ : ∃ (b : Fin 4) (n : Fin 8192), i = ix2 b n := ⟨i 0, i 1, eq_ix2 i⟩
  have hb := b.isLt
  have hn := n.isLt
  have hN : cfg1.N = 128 := N_1
  have ht : 16 * (n.val / 1024) + 15 < cfg1.N := by rw [hN]; omega
  obtain ⟨-, -, -, -, -, -, e0, e1⟩ := idx_facts ⟨16 * (n.val / 1024) + 15, ht⟩
  refine ⟨⟨16 * (n.val / 1024) + 15, ht⟩, (flush0_2 _).mpr (by show (16 * (n.val / 1024) + 15) % 16 = 15; omega), ?_⟩
  rw [mem_blk]
  intro a
  match a with
  | ⟨0, _⟩ =>
    show win1_2.index ⟨16 * (n.val / 1024) + 15, ht⟩ (0 : Fin 2) * 4 ≤ b.val ∧ b.val < win1_2.index ⟨16 * (n.val / 1024) + 15, ht⟩ (0 : Fin 2) * 4 + 4
    rw [e0]; omega
  | ⟨1, _⟩ =>
    show win1_2.index ⟨16 * (n.val / 1024) + 15, ht⟩ (1 : Fin 2) * 1024 ≤ n.val ∧ n.val < win1_2.index ⟨16 * (n.val / 1024) + 15, ht⟩ (1 : Fin 2) * 1024 + 1024
    rw [e1]
    show (16 * (n.val / 1024) + 15) / 16 * 1024 ≤ n.val ∧ n.val < (16 * (n.val / 1024) + 15) / 16 * 1024 + 1024
    omega

end Final

/-- THE ARRAY after the region: the nearest-neighbour distances of the first cloud's points in the second cloud. -/
theorem final1 (V : (c : Dev nD) → (b : Ref sig .tc) → Buf (Elt Ideal) ((c : Thread nD τ).loc b)) (c : Dev nD) :
    (Reg1.dat1 V c).arrAt 2 cfg1.N = Cert.Chamfer.nearArr (V c (Pipeline.arrRef spec1 0)) (V c (Pipeline.arrRef spec1 1)) :=
  (dat1 V c).arrAt_eq_of_cover 2 _ (fun t hf => flushed_eq V c t ((flush0_2 t).mp hf)) cover

end Cert.KernelIdeal.Val1

end
-- ==== Proof.RefSide.lean ====
/-
  The reference side. The reference computes, for every pair (point n of X, point m of Y) of a batch, the clamped
  squared distance max((‖x_n‖² + ‖y_m‖²) − 2·⟨x_n, y_m⟩, 0), and then takes its minimum over m (from +∞) and its
  minimum over n (from +∞). The first is the nearest-neighbour array of X in Y; the second, because the clamped
  distance is symmetric in its two points (only commutativity of + and · on the extended reals is used), is the
  nearest-neighbour array of Y in X.
-/
import proofs.«116434_j28114855920185_1_alg».proof.Proof.Spec
import proofs.«116434_j28114855920185_1_alg».proof.Proof.Gen.ReferenceIdeal.Read
import Idealize.ShloMosaic.Lib.ValueIdx
import Idealize.ShloMosaic.PureOps.Ideal.Laws

noncomputable section

namespace Cert.Chamfer.Ref

open Idealize.ShloMosaic Idealize.ShloMosaic.ValueIdx Cert.ReferenceIdeal Cert.ReferenceIdeal.Read Cert.Chamfer
open Cert.ReferenceIdeal.Facts₀ Cert.ReferenceIdeal.Facts

variable [Cert.ReferenceIdeal.Facts]

/-- A cloud array as the reference program types it. -/
abbrev Cloud : Type := (⟨Cert.ReferenceIdeal.S4x8192x3, .f32⟩ : BufTy).Contents (Elt Ideal)

/-! ## The clamped distance is symmetric -/

theorem dot_comm (X Y : SCloud.Idx → EReal) (b : Fin 4) (n m : Fin 8192) : dot X Y b n m = dot Y X b m n := by
  unfold dot
  exact Finset.sum_congr rfl fun d _ => mul_comm _ _

theorem dist_comm (X Y : SCloud.Idx → EReal) (b : Fin 4) (n m : Fin 8192) : dist X Y b n m = dist Y X b m n := by
  unfold dist
  rw [dot_comm X Y b n m, add_comm (sq X b n) (sq Y b m)]

/-! ## The pairwise array, read at an index -/

/-- The host sum of the squares of X's coordinates, from the zero word, is ‖x_n‖². -/
theorem v1_at (X : Cloud) (b : Fin 4) (n : Fin 8192) : val_main_v1 (F := Ideal) X (ix2 b n) = sq X b n := by
  rw [val_main_v1_apply, val_main_cst_apply]
  show Ideal.ofBits .f32 0x00000000#32 + _ = _
  rw [Ideal.ofBits_zero_f32, zero_add]
  unfold sq
  refine Finset.sum_congr rfl fun k _ => ?_
  rw [val_main_v0_apply]
  have e : idx_main_v1 (ix2 b n) k = ix3 b n k :=
    funext fun a => Fin.ext (by match a with | ⟨0, _⟩ => rfl | ⟨1, _⟩ => rfl | ⟨2, _⟩ => rfl)
  rw [e]
  rfl

/-- The host sum of the squares of Y's coordinates, from the zero word, is ‖y_m‖². -/
theorem v3_at (Y : Cloud) (b : Fin 4) (m : Fin 8192) : val_main_v3 (F := Ideal) Y (ix2 b m) = sq Y b m := by
  rw [val_main_v3_apply, val_main_cst_0_apply]
  show Ideal.ofBits .f32 0x00000000#32 + _ = _
  rw [Ideal.ofBits_zero_f32, zero_add]
  unfold sq
  refine Finset.sum_congr rfl fun k _ => ?_
  rw [val_main_v2_apply]
  have e : idx_main_v3 (ix2 b m) k = ix3 b m k :=
    funext fun a => Fin.ext (by match a with | ⟨0, _⟩ => rfl | ⟨1, _⟩ => rfl | ⟨2, _⟩ => rfl)
  rw [e]
  rfl

/-- The batched contraction over the coordinate axis is ⟨x_n, y_m⟩. -/
theorem v4_at (X Y : Cloud) (b : Fin 4) (n m : Fin 8192) :
    val_main_v4 (F := Ideal) X Y (ix3 b n m) = dot X Y b n m := by
  rw [val_main_v4_apply]
  unfold dot
  refine Finset.sum_congr rfl fun k _ => ?_
  have el : lidx_main_v4 (ix3 b n m) k = ix3 b n k :=
    funext fun a => Fin.ext (by match a with | ⟨0, _⟩ => rfl | ⟨1, _⟩ => rfl | ⟨2, _⟩ => rfl)
  have er : ridx_main_v4 (ix3 b n m) k = ix3 b m k :=
    funext fun a => Fin.ext (by match a with | ⟨0, _⟩ => rfl | ⟨1, _⟩ => rfl | ⟨2, _⟩ => rfl)
  rw [el, er]

/-- The reference's pairwise array at (b, n, m) is the clamped distance of x_n and y_m. -/
theorem v14_at (X Y : Cloud) (b : Fin 4) (n m : Fin 8192) :
    val_main_v14 (F := Ideal) X Y (ix3 b n m) = dist X Y b n m := by
  rw [val_main_v14_apply, val_main_v12_apply, val_main_v13_apply, val_main_cst_2_apply, val_main_v9_apply,
    val_main_v11_apply, val_main_v10_apply, val_main_cst_1_apply, val_main_v7_apply, val_main_v8_apply,
    val_main_v5_apply, val_main_v6_apply]
  have e1 : idx_main_v5 (idx_main_v7 (ix3 b n m)) = ix2 b n :=
    funext fun a => Fin.ext (by match a with | ⟨0, _⟩ => rfl | ⟨1, _⟩ => rfl)
  have e2 : idx_main_v6 (idx_main_v8 (ix3 b n m)) = ix2 b m :=
    funext fun a => Fin.ext (by match a with | ⟨0, _⟩ => rfl | ⟨1, _⟩ => rfl)
  rw [e1, e2, v1_at, v3_at, v4_at]
  rfl

/-! ## The reduced index with the dropped coordinate put back -/

theorem lift_d2 (h : S4x8192x8192.Reduces [2] S4x8192) (b : Fin 4) (n : Fin 8192) (k : Fin (S4x8192x8192.size 2)) :
    h.lift (ix2 b n) k = ix3 b n (⟨k.val, k.isLt⟩ : Fin 8192) := by
  funext c; apply Fin.ext
  fin_cases c <;> rfl

theorem lift_d1 (h : S4x8192x8192.Reduces [1] S4x8192) (b : Fin 4) (m : Fin 8192) (k : Fin (S4x8192x8192.size 1)) :
    h.lift (ix2 b m) k = ix3 b (⟨k.val, k.isLt⟩ : Fin 8192) m := by
  funext c; apply Fin.ext
  fin_cases c <;> rfl

/-! ## The two min-reduces -/

/-- The minimum over m, from +∞, of the pairwise array: the nearest neighbour in Y of every point of X. -/
theorem v15_eq (X Y : (⟨Cert.ReferenceIdeal.S4x8192x3, .f32⟩ : BufTy).Contents (Elt Ideal)) :
    Cert.ReferenceIdeal.Read.val_main_v15 (F := Ideal) X Y = Cert.Chamfer.nearArr X Y := by
  funext j
  obtain ⟨b, n, rfl⟩ : ∃ (b : Fin 4) (n : Fin 8192), j = ix2 b n := ⟨j 0, j 1, eq_ix2 j⟩
  rw [nearArr_ix2]
  unfold val_main_v15
  generalize hx : val_main_v14 (F := Ideal) X Y = x
  have h : S4x8192x8192.Reduces [2] S4x8192 := by decide
  refine (Host.reduce_eq_fold_single (FloatOps.minimumf (F := Ideal) (φ := .f32)) x (val_main_cst_3 (F := Ideal))
    reducesTo_S4x8192x8192_S4x8192_d2 h h_S_ (ix2 b n)).trans ?_
  rw [val_main_cst_3_apply]
  unfold near
  have hf : (x ∘ h.lift (ix2 b n)) = fun m : Fin 8192 => dist X Y b n m := funext fun k => by
    show x (h.lift (ix2 b n) k) = _
    rw [lift_d2 h b n k, ← hx, v14_at]
    rfl
  exact congrArg (fun f => Finset.fold min pinf f (Finset.univ : Finset (Fin 8192))) hf

/-- The minimum over n, from +∞, of the same pairwise array: by the symmetry of the clamped distance, the nearest
    neighbour in X of every point of Y. -/
theorem v16_eq (X Y : (⟨Cert.ReferenceIdeal.S4x8192x3, .f32⟩ : BufTy).Contents (Elt Ideal)) :
    Cert.ReferenceIdeal.Read.val_main_v16 (F := Ideal) X Y = Cert.Chamfer.nearArr Y X := by
  funext j
  obtain ⟨b, m, rfl⟩ : ∃ (b : Fin 4) (m : Fin 8192), j = ix2 b m := ⟨j 0, j 1, eq_ix2 j⟩
  rw [nearArr_ix2]
  unfold val_main_v16
  generalize hx : val_main_v14 (F := Ideal) X Y = x
  have h : S4x8192x8192.Reduces [1] S4x8192 := by decide
  refine (Host.reduce_eq_fold_single (FloatOps.minimumf (F := Ideal) (φ := .f32)) x (val_main_cst_4 (F := Ideal))
    reducesTo_S4x8192x8192_S4x8192_d1 h h_S_ (ix2 b m)).trans ?_
  rw [val_main_cst_4_apply]
  unfold near
  have hf : (x ∘ h.lift (ix2 b m)) = fun n : Fin 8192 => dist Y X b m n := funext fun k => by
    show x (h.lift (ix2 b m) k) = _
    rw [lift_d1 h b m k, ← hx, v14_at, dist_comm]
    rfl
  exact congrArg (fun f => Finset.fold min pinf f (Finset.univ : Finset (Fin 8192))) hf

end Cert.Chamfer.Ref

end
-- ==== Proof.Bridge.lean ====
/-
  The two idealized programs end with equal results.

  Both programs finish with the same host operations: the mean of one array of nearest-neighbour distances plus the mean of
  another (each a sum over all 4·8192 entries divided by 32768). That tail is carried as ONE function `means` of the two
  arrays and never opened. The kernel's two arrays are what its two regions leave in their outputs; the reference's are its two
  min-reductions of one distance tensor; each pair is the specification's `nearArr` of the two clouds, in the two orders.
-/
import proofs.«116434_j28114855920185_1_alg».proof.Defs
import proofs.«116434_j28114855920185_1_alg».proof.Proof.Spec
import proofs.«116434_j28114855920185_1_alg».proof.Proof.Run
import proofs.«116434_j28114855920185_1_alg».proof.Proof.RefSide
import proofs.«116434_j28114855920185_1_alg».proof.Proof.Gen.ReferenceIdeal.Run
import proofs.«116434_j28114855920185_1_alg».proof.Proof.Gen.ReferenceIdeal.Read
import proofs.«116434_j28114855920185_1_alg».proof.Proof.Gen.Pre_finite_inputs

noncomputable section

namespace Cert.Proof.Bridge

open Idealize.ShloMosaic Idealize.ShloMosaic.TcCoe Idealize.SL.Sem
open Cert.KernelIdeal Cert.KernelIdeal.Gen

/-- The host tail shared by the two programs: the two arrays' means, added. -/
def means (a b : (⟨S4x8192, .f32⟩ : BufTy).Contents (Elt Ideal)) : (⟨S_, .f32⟩ : BufTy).Contents (Elt Ideal) :=
  addf (Host.divf (Host.reduceAdd a (constant (F := Ideal) S_ .f32 0x00000000#32) reducesTo_S4x8192_S_d0_1 h_S_) (constant (F := Ideal) S_ .f32 0x47000000#32))
    (Host.divf (Host.reduceAdd b (constant (F := Ideal) S_ .f32 0x00000000#32) reducesTo_S4x8192_S_d0_1 h_S_) (constant (F := Ideal) S_ .f32 0x47000000#32))

variable (m : (ℓ : Loc nD τ sig) → Buf (Elt Ideal) ℓ)

/-- The kernel program's result: the tail applied to what the two regions left in `main_v0` and `main_v1`. -/
theorem kernel_result (c : Dev nD) :
    Run.B3 (F := Ideal) m c (Proc.devRef .tc main_v6)
      = means (Run.B2 (F := Ideal) m c (Proc.devRef .tc main_v0)) (Run.B2 (F := Ideal) m c (Proc.devRef .tc main_v1)) := by
  show StableHlo.after hostOps2 _ (Proc.devRef .tc main_v6) = _
  after_results
  rfl

/-- The reference's result: the same tail applied to its two min-reductions. -/
theorem ref_result (X Y : (⟨Cert.ReferenceIdeal.S4x8192x3, .f32⟩ : BufTy).Contents (Elt Ideal)) :
    Cert.ReferenceIdeal.Read.val_main_v21 (F := Ideal) X Y
      = means (Cert.ReferenceIdeal.Read.val_main_v15 (F := Ideal) X Y) (Cert.ReferenceIdeal.Read.val_main_v16 (F := Ideal) X Y) := rfl

/-- The value claim, given what each region leaves in its output array. -/
theorem algebraic_of
    (hf0 : ∀ (V : (c : Dev nD) → (b : Ref sig .tc) → Buf (Elt Ideal) ((c : Thread nD τ).loc b)) (c : Dev nD),
      (Reg0.dat0 V c).arrAt 2 cfg0.N = Cert.Chamfer.nearArr (V c (Pipeline.arrRef spec0 0)) (V c (Pipeline.arrRef spec0 1)))
    (hf1 : ∀ (V : (c : Dev nD) → (b : Ref sig .tc) → Buf (Elt Ideal) ((c : Thread nD τ).loc b)) (c : Dev nD),
      (Reg1.dat1 V c).arrAt 2 cfg1.N = Cert.Chamfer.nearArr (V c (Pipeline.arrRef spec1 0)) (V c (Pipeline.arrRef spec1 1))) :
    Cert.algebraic_KernelIdeal_ReferenceIdeal := by
  intro m ρ m' ρ' _ hagree
  refine ⟨fun c => Cert.ReferenceIdeal.Read.val_main_v21 (F := Ideal) (m ((c.tc : Thread nD τ).loc main_arg0)) (m ((c.tc : Thread nD τ).loc main_arg1)), ?_, ?_⟩
  · refine (θ_run Cert.KernelIdeal.defs _ _).mono (fun r h c => ⟨?_, ?_, ?_⟩) (Run.run_all (F := Ideal) m ρ)
    · refine (h c _ (Run.mem_uc main_v6 (by decide))).trans ?_
      show _ = Cert.ReferenceIdeal.Read.val_main_v21 (F := Ideal) (m ((c.tc : Thread nD τ).loc main_arg0)) (m ((c.tc : Thread nD τ).loc main_arg1))
      rw [kernel_result, Run.B2_main_v0, Run.B2_main_v1, hf0, hf1, ref_result, Cert.Chamfer.Ref.v15_eq, Cert.Chamfer.Ref.v16_eq]
      rw [show Run.U1 m c (Pipeline.arrRef spec1 0) = m ((c.tc : Thread nD τ).loc main_arg1) from Run.U1_main_arg1 m c,
        show Run.U1 m c (Pipeline.arrRef spec1 1) = m ((c.tc : Thread nD τ).loc main_arg0) from Run.U1_main_arg0 m c]
    · exact (h c _ (Run.mem_uc main_arg0 (by decide))).trans (Run.B3_main_arg0 m c)
    · exact (h c _ (Run.mem_uc main_arg1 (by decide))).trans (Run.B3_main_arg1 m c)
  · refine (θ_run Cert.ReferenceIdeal.defs _ _).mono (fun r h c => ⟨?_, (h c).2.1, (h c).2.2⟩) (Cert.ReferenceIdeal.Value.run (F := Ideal) m' ρ')
    rw [(h c).1, Cert.ReferenceIdeal.Read.val_main_v21_eq, (hagree c).1, (hagree c).2]

end Cert.Proof.Bridge

end
-- ==== Proof.lean ====
/-
  The chamfer distance of two point clouds, by a tiled running-minimum kernel and by the plain formula.

  For clouds X, Y of 8192 points of ℝ³ in each of 4 batches, both programs compute mean(near X Y) + mean(near Y X), where
  near X Y (b, n) = min over m of max((‖x_n‖² + ‖y_m‖²) − 2⟨x_n, y_m⟩, 0) (module Spec). The kernel program runs one
  pallas_call per direction: on an 8 × 16 grid it keeps, in a scratch buffer, the running minimum over the column tiles of
  512 points, reset to +∞ in the first column and copied to the output in the last (modules Body0 / Body1: the body's three
  cases and the region's invariant; Run: the two regions and the host tail as one run; Value0 / Value1: the output array is
  near, the minimum over 8192 columns being the minimum over 16 tiles of the minimum over 512, by the order's universal
  property). The reference forms the whole 8192 × 8192 distance tensor once and min-reduces it along each axis (module
  RefSide); the second reduction is near Y X because the distance is symmetric — commutativity of + and · on the extended
  reals, so no finiteness is used. Both programs end with the same two means and their sum, carried as one function
  (module Bridge). At the word level the frame is the same run read at the bit-exact instance (KBody0 / KBody1 / KRun).
-/
import proofs.«116434_j28114855920185_1_alg».proof.Defs
import proofs.«116434_j28114855920185_1_alg».proof.Proof.Gen.Kernel
import proofs.«116434_j28114855920185_1_alg».proof.Proof.Gen.KernelIdeal
import proofs.«116434_j28114855920185_1_alg».proof.Proof.Gen.ReferenceIdeal
import proofs.«116434_j28114855920185_1_alg».proof.Proof.Gen.ReferenceIdeal.Run
import proofs.«116434_j28114855920185_1_alg».proof.Proof.Gen.ReferenceIdeal.Read
import proofs.«116434_j28114855920185_1_alg».proof.Proof.Gen.Pre_finite_inputs
import proofs.«116434_j28114855920185_1_alg».proof.Proof.KRun
import proofs.«116434_j28114855920185_1_alg».proof.Proof.Run
import proofs.«116434_j28114855920185_1_alg».proof.Proof.Value0
import proofs.«116434_j28114855920185_1_alg».proof.Proof.Value1
import proofs.«116434_j28114855920185_1_alg».proof.Proof.Bridge
import Idealize.ShloMosaic.Adequacy
import Idealize.ShloMosaic.Init

noncomputable section

namespace Cert.Proof

open Idealize.ShloMosaic Idealize.SL.Sem

/-- The word-level kernel program runs to the end and leaves both clouds unchanged. -/
theorem frame_kernel : Cert.frame_Kernel := fun m ρ _ => Cert.Kernel.Run.frame (F := Bits) m ρ

/-- So does its idealization. -/
theorem frame_kernelIdeal : Cert.frame_KernelIdeal := fun m ρ _ => Cert.KernelIdeal.Run.frame (F := Ideal) m ρ

/-- The reference is host operations only: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs end with equal results: each region's output array is the nearest-neighbour distances. -/
theorem algebraic : Cert.algebraic_KernelIdeal_ReferenceIdeal :=
  Cert.Proof.Bridge.algebraic_of Cert.KernelIdeal.Val0.final0 Cert.KernelIdeal.Val1.final1

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
